-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000 : Shape := ⟨1, ![500000]⟩
abbrev S4x128x128 : Shape := ⟨3, ![4, 128, 128]⟩
abbrev S4x128 : Shape := ⟨2, ![4, 128]⟩
abbrev S1024x128 : Shape := ⟨2, ![1024, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S2x500000 : S_.BroadcastsInDim S2x500000 (![] : Fin 0 → Fin S2x500000.rank)
  reducesTo_S2x500000_S_d0_1 : S2x500000.ReducesTo [0, 1] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg2 : IVec S500000 32) (main_v50 : IVec S_ 1) : IVec S_ 1 :=
  let main_c_19 : IVec S_ 32 := constantI S_ 32 0#32
  let main_v51 : IVec S500000 32 := broadcastInDim S500000 ![] bcast_S_S500000 main_c_19
  let main_v52 : IVec S500000 1 := cmpi .sge main_arg2 main_v51
  let main_c_20 : IVec S_ 32 := constantI S_ 32 4#32
  let main_v53 : IVec S500000 32 := broadcastInDim S500000 ![] bcast_S_S500000 main_c_20
  let main_v54 : IVec S500000 1 := cmpi .slt main_arg2 main_v53
  let main_v55 : IVec S500000 1 := andi main_v52 main_v54
  let main_c_21 : IVec S_ 1 := constantI S_ 1 1#1
  let main_v56 : IVec S_ 1 := (fun x v => Host.reduce IntOp.andi x v reducesTo_S500000_S_d0 h_S_) main_v55 main_c_21
  let main_v57 : IVec S_ 1 := andi main_v50 main_v56
  main_v57

def fn_part2 {F : FTy → Type} [FloatOps F] (main_arg1 : IVec S2x500000 32) (main_arg2 : IVec S500000 32) (main_arg9 : FVec F S1024x128 .f32) (main_arg10 : FVec F S128 .f32) (main_v33 : IVec S_ 1) : IVec S_ 1 :=
  let main_v34 : FVec F S1024x128 .f32 := Host.absf main_arg9
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x500000 32 := broadcastInDim S2x500000 ![] bcast_S_S2x500000 main_c_16
  let main_v45 : IVec S2x500000 1 := cmpi .sge main_arg1 main_v44
  let main_c_17 : IVec S_ 32 := constantI S_ 32 50000#32
  let main_v46 : IVec S2x500000 32 := broadcastInDim S2x500000 ![] bcast_S_S2x500000 main_c_17
  let main_v47 : IVec S2x500000 1 := cmpi .slt main_arg1 main_v46
  let main_v48 : IVec S2x500000 1 := andi main_v45 main_v47
  let main_c_18 : IVec S_ 1 := constantI S_ 1 1#1
  let main_v49 : IVec S_ 1 := (fun x v => Host.reduce IntOp.andi x v reducesTo_S2x500000_S_d0_1 h_S_) main_v48 main_c_18
  let main_v50 : IVec S_ 1 := andi main_v43 main_v49
  fn_part3 (F := F) main_arg2 main_v50

def fn_part1 {F : FTy → Type} [FloatOps F] (main_arg1 : IVec S2x500000 32) (main_arg2 : IVec S500000 32) (main_arg6 : FVec F S4x128x128 .f32) (main_arg7 : FVec F S4x128x128 .f32) (main_arg8 : FVec F S4x128 .f32) (main_arg9 : FVec F S1024x128 .f32) (main_arg10 : FVec F S128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128x128 .f32 := Host.absf main_arg6
  let main_cst_6 : FVec F S_ .f32 := constant S_ .f32 0x7F800000#32
  let main_v20 : FVec F S4x128x128 .f32 := broadcastInDim S4x128x128 ![] bcast_S_S4x128x128 main_cst_6
  let main_v21 : IVec S4x128x128 1 := cmpf .olt main_v19 main_v20
  let main_c_7 : IVec S_ 1 := constantI S_ 1 1#1
  let main_v22 : IVec S_ 1 := (fun x v => Host.reduce IntOp.andi x v reducesTo_S4x128x128_S_d0_1_2 h_S_) main_v21 main_c_7
  let main_v23 : IVec S_ 1 := andi main_v18 main_v22
  let main_v24 : FVec F S4x128x128 .f32 := Host.absf main_arg7
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg1 main_arg2 main_arg9 main_arg10 main_v33

def fn {F : FTy → Type} [FloatOps F] (main_arg0 : FVec F S50000x128 .f32) (main_arg1 : IVec S2x500000 32) (main_arg2 : IVec S500000 32) (main_arg3 : FVec F S4x128x128 .f32) (main_arg4 : FVec F S4x128x128 .f32) (main_arg5 : FVec F S4x128 .f32) (main_arg6 : FVec F S4x128x128 .f32) (main_arg7 : FVec F S4x128x128 .f32) (main_arg8 : FVec F S4x128 .f32) (main_arg9 : FVec F S1024x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg1 main_arg2 main_arg6 main_arg7 main_arg8 main_arg9 main_arg10 main_v13 main_v16
-- ==== Kernel.lean ====
abbrev S50000x128 : Shape := ⟨2, ![50000, 128]⟩
abbrev S2x500000 : Shape := ⟨2, ![2, 500000]⟩
abbrev S500000 : Shape := ⟨1, ![500000]⟩
abbrev S4x128x128 : Shape := ⟨3, ![4, 128, 128]⟩
abbrev S4x128 : Shape := ⟨2, ![4, 128]⟩
abbrev S1024x128 : Shape := ⟨2, ![1024, 128]⟩
abbrev S128 : Shape := ⟨1, ![128]⟩
abbrev S1x500000 : Shape := ⟨2, ![1, 500000]⟩
abbrev S_ : Shape := ⟨0, ![]⟩
abbrev S500000x1 : Shape := ⟨2, ![500000, 1]⟩
abbrev S500000x128 : Shape := ⟨2, ![500000, 128]⟩
abbrev S200001x128 : Shape := ⟨2, ![200001, 128]⟩
abbrev S200000x128 : Shape := ⟨2, ![200000, 128]⟩
abbrev S4x50000x128 : Shape := ⟨3, ![4, 50000, 128]⟩
abbrev S1000x128 : Shape := ⟨2, ![1000, 128]⟩
abbrev S4x1000x128 : Shape := ⟨3, ![4, 1000, 128]⟩
abbrev S1x1000x128 : Shape := ⟨3, ![1, 1000, 128]⟩
abbrev S1x128x128 : Shape := ⟨3, ![1, 128, 128]⟩
abbrev S128x128 : Shape := ⟨2, ![128, 128]⟩
abbrev S1x128 : Shape := ⟨2, ![1, 128]⟩
abbrev S1000x1024 : Shape := ⟨2, ![1000, 1024]⟩

abbrev nBuf : Space → Nat
  | .hbm => 63
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000, .i32⟩
  | .hbm, ⟨3, _⟩ => ⟨S4x128x128, .f32⟩
  | .hbm, ⟨4, _⟩ => ⟨S4x128x128, .f32⟩
  | .hbm, ⟨5, _⟩ => ⟨S4x128, .f32⟩
  | .hbm, ⟨6, _⟩ => ⟨S4x128x128, .f32⟩
  | .hbm, ⟨7, _⟩ => ⟨S4x128x128, .f32⟩
  | .hbm, ⟨8, _⟩ => ⟨S4x128, .f32⟩
  | .hbm, ⟨9, _⟩ => ⟨S1024x128, .f32⟩
  | .hbm, ⟨10, _⟩ => ⟨S128, .f32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S500000, .i1⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S_, .i32⟩
  | .hbm, ⟨26, _⟩ => ⟨S500000, .i32⟩
  | .hbm, ⟨27, _⟩ => ⟨S500000, .i1⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S500000, .i32⟩
  | .hbm, ⟨32, _⟩ => ⟨S500000x1, .i32⟩
  | .hbm, ⟨33, _⟩ => ⟨S500000x128, .f32⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S_, .i32⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S_, .i32⟩
  | .hbm, ⟨47, _⟩ => ⟨S_, .i32⟩
  | .hbm, ⟨48, _⟩ => ⟨S500000, .i32⟩
  | .hbm, ⟨49, _⟩ => ⟨S500000, .i32⟩
  | .hbm, ⟨50, _⟩ => ⟨S_, .f32⟩
  | .hbm, ⟨51, _⟩ => ⟨S200001x128, .f32⟩
  | .hbm, ⟨52, _⟩ => ⟨S500000x1, .i32⟩
  | .hbm, ⟨53, _⟩ => ⟨S200001x128, .f32⟩
  | .hbm, ⟨54, _⟩ => ⟨S_, .f32⟩
  | .hbm, ⟨55, _⟩ => ⟨S200001x128, .f32⟩
  | .hbm, ⟨56, _⟩ => ⟨S500000x1, .i32⟩
  | .hbm, ⟨57, _⟩ => ⟨S200001x128, .f32⟩
  | .hbm, ⟨58, _⟩ => ⟨S200000x128, .f32⟩
  | .hbm, ⟨59, _⟩ => ⟨S4x50000x128, .f32⟩
  | .hbm, ⟨60, _⟩ => ⟨S200000x128, .f32⟩
  | .hbm, ⟨61, _⟩ => ⟨S4x50000x128, .f32⟩
  | .hbm, ⟨62, _⟩ => ⟨S50000x128, .f32⟩
  | .local _ .vmem, ⟨0, _⟩ => ⟨S1000x128, .f32⟩
  | .local _ .vmem, ⟨1, _⟩ => ⟨S1000x128, .f32⟩
  | .local _ .vmem, ⟨2, _⟩ => ⟨S4x1000x128, .f32⟩
  | .local _ .vmem, ⟨3, _⟩ => ⟨S4x1000x128, .f32⟩
  | .local _ .vmem, ⟨4, _⟩ => ⟨S4x1000x128, .f32⟩
  | .local _ .vmem, ⟨5, _⟩ => ⟨S4x1000x128, .f32⟩
  | .local _ .vmem, ⟨6, _⟩ => ⟨S4x128x128, .f32⟩
  | .local _ .vmem, ⟨7, _⟩ => ⟨S4x128x128, .f32⟩
  | .local _ .vmem, ⟨8, _⟩ => ⟨S4x128, .f32⟩
  | .local _ .vmem, ⟨9, _⟩ => ⟨S4x128x128, .f32⟩
  | .local _ .vmem, ⟨10, _⟩ => ⟨S4x128x128, .f32⟩
  | .local _ .vmem, ⟨11, _⟩ => ⟨S4x128, .f32⟩
  | .local _ .vmem, ⟨12, _⟩ => ⟨S1024x128, .f32⟩
  | .local _ .vmem, ⟨13, _⟩ => ⟨S128, .f32⟩
  | .local _ .vmem, ⟨14, _⟩ => ⟨S1000x128, .f32⟩
  | .local _ .vmem, ⟨15, _⟩ => ⟨S1000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_call0_v0 : Ref sig .tc := ⟨.hbm, 39, rfl⟩
abbrev main_call0_v1 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_call1_v0 : Ref sig .tc := ⟨.hbm, 47, rfl⟩
abbrev main_call1_v1 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_7 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S200001x128 : S_.BroadcastsInDim S200001x128 (![] : Fin 0 → Fin S200001x128.rank)
  slices_S200001x128_S200000x128_0_0 : S200001x128.Slices ![0, 0] S200000x128
  shapeCasts_S200000x128_S4x50000x128 : S200000x128.ShapeCasts S4x50000x128
  inb_S1000x128_S1000x128_0_0 : ∀ a, (![0, 0] : Fin 2 → Nat) a + S1000x128.size a ≤ S1000x128.size a
  h_S1000x128 : 0 < S1000x128.numel
  bitsLt_bf16_f32 : FTy.bits .bf16 < FTy.bits .f32
  inb_S4x1000x128_S1x1000x128_0_0_0 : ∀ a, (![0, 0, 0] : Fin 3 → Nat) a + S1x1000x128.size a ≤ S4x1000x128.size a
  h_S1x1000x128 : 0 < S1x1000x128.numel
  shapeCasts_S1x1000x128_S1000x128 : S1x1000x128.ShapeCasts S1000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128_S1x128_0_0 : ∀ a, (![0, 0] : Fin 2 → Nat) a + S1x128.size a ≤ S4x128.size a
  h_S1x128 : 0 < S1x128.numel
  shapeCasts_S1x128_S128 : S1x128.ShapeCasts S128
  shapeCasts_S128_S1x128 : S128.ShapeCasts S1x128
  broadcasts_S1x128_S1000x128 : S1x128.Broadcasts S1000x128
  inb_S4x1000x128_S1x1000x128_1_0_0 : ∀ a, (![1, 0, 0] : Fin 3 → Nat) a + S1x1000x128.size a ≤ S4x1000x128.size a
  inb_S4x128x128_S1x128x128_1_0_0 : ∀ a, (![1, 0, 0] : Fin 3 → Nat) a + S1x128x128.size a ≤ S4x128x128.size a
  inb_S4x128_S1x128_1_0 : ∀ a, (![1, 0] : Fin 2 → Nat) a + S1x128.size a ≤ S4x128.size a
  inb_S4x1000x128_S1x1000x128_2_0_0 : ∀ a, (![2, 0, 0] : Fin 3 → Nat) a + S1x1000x128.size a ≤ S4x1000x128.size a
  inb_S4x128x128_S1x128x128_2_0_0 : ∀ a, (![2, 0, 0] : Fin 3 → Nat) a + S1x128x128.size a ≤ S4x128x128.size a
  inb_S4x128_S1x128_2_0 : ∀ a, (![2, 0] : Fin 2 → Nat) a + S1x128.size a ≤ S4x128.size a
  inb_S4x1000x128_S1x1000x128_3_0_0 : ∀ a, (![3, 0, 0] : Fin 3 → Nat) a + S1x1000x128.size a ≤ S4x1000x128.size a
  inb_S4x128x128_S1x128x128_3_0_0 : ∀ a, (![3, 0, 0] : Fin 3 → Nat) a + S1x128x128.size a ≤ S4x128x128.size a
  inb_S4x128_S1x128_3_0 : ∀ a, (![3, 0] : Fin 2 → Nat) a + S1x128.size a ≤ S4x128.size a
  concatenates_S1000x128_S1000x128_S1000x128_S1000x128_S1000x128_S1000x128_S1000x128_S1000x128_S1000x1024_d1 : Shape.Concatenates [S1000x128, S1000x128, S1000x128, S1000x128, S1000x128, S1000x128, S1000x128, S1000x128] S1000x1024 1
  inb_S1024x128_S1024x128_0_0 : ∀ a, (![0, 0] : Fin 2 → Nat) a + S1024x128.size a ≤ S1024x128.size a
  h_S1024x128 : 0 < S1024x128.numel
  inb_S128_S128_0 : ∀ a, (![0] : Fin 1 → Nat) a + S128.size a ≤ S128.size a
  h_S128 : 0 < S128.numel
  gather_S50000x128_S500000x1_S500000x128_1_0_n_n_0_1_1128_wf : GatherDims.WF S50000x128 S500000x1 S500000x128 [1] [0] [] [0] [] 1 ![1, 128]
  scatter_S200001x128_S500000x1_S500000x128_1_0_0_1_wf : ScatterDims.WF S200001x128 S500000x1 S500000x128 [1] [0] [0] 1
  dot_S1000x128_S128x128_S1000x128_1_0_0_1_n_n_wf : DotDims.WF S1000x128 S128x128 S1000x128 [1] [0] [0] [1] [] []
  dot_S1000x1024_S1024x128_S1000x128_1_0_0_1_n_n_wf : DotDims.WF S1000x1024 S1024x128 S1000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S50000x128.size a
  hwx0_0 : ∀ i : grid0.Coords, EltTy.bits .f32 = 32 ∨ (Rect.block (s := S50000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1000x128.size a ≤ S4x50000x128.size a
  hwx0_1 : ∀ i : grid0.Coords, EltTy.bits .f32 = 32 ∨ (Rect.block (s := S4x50000x128) S4x1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1000x128.size a ≤ S4x50000x128.size a
  hwx0_2 : ∀ i : grid0.Coords, EltTy.bits .f32 = 32 ∨ (Rect.block (s := S4x50000x128) S4x1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128x128.size a ≤ S4x128x128.size a
  hwx0_3 : ∀ i : grid0.Coords, EltTy.bits .f32 = 32 ∨ (Rect.block (s := S4x128x128) S4x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x128.size a ≤ S4x128x128.size a
  hwx0_4 : ∀ i : grid0.Coords, EltTy.bits .f32 = 32 ∨ (Rect.block (s := S4x128x128) S4x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x128.size a
  hwx0_5 : ∀ i : grid0.Coords, EltTy.bits .f32 = 32 ∨ (Rect.block (s := S4x128) S4x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x128x128.size a ≤ S4x128x128.size a
  hwx0_6 : ∀ i : grid0.Coords, EltTy.bits .f32 = 32 ∨ (Rect.block (s := S4x128x128) S4x128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x128x128.size a ≤ S4x128x128.size a
  hwx0_7 : ∀ i : grid0.Coords, EltTy.bits .f32 = 32 ∨ (Rect.block (s := S4x128x128) S4x128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x128.size a ≤ S4x128.size a
  hwx0_8 : ∀ i : grid0.Coords, EltTy.bits .f32 = 32 ∨ (Rect.block (s := S4x128) S4x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S1024x128.size a
  hwx0_9 : ∀ i : grid0.Coords, EltTy.bits .f32 = 32 ∨ (Rect.block (s := S1024x128) S1024x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x128.size a ≤ S50000x128.size a
  hwx0_11 : ∀ i : grid0.Coords, EltTy.bits .f32 = 32 ∨ (Rect.block (s := S50000x128) S1000x128.size (cc0_transform_11 i) (hinb0_11 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S200001x128_S500000x1_S500000x128_1_0_0_1 : ScatterDims S200001x128 S500000x1 S500000x128 where
  updateWindowDims := [1]
  insertedWindowDims := [0]
  scatterDimsToOperandDims := [0]
  indexVectorDim := 1
  wf := scatter_S200001x128_S500000x1_S500000x128_1_0_0_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def dot_S1000x1024_S1024x128_S1000x128_1_0_0_1_n_n : DotDims S1000x1024 S1024x128 S1000x128 where
  lhsContracting := [1]
  rhsContracting := [0]
  lhsNonContracting := [0]
  rhsNonContracting := [1]
  lhsBatch := []
  rhsBatch := []
  wf := dot_S1000x1024_S1024x128_S1000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S4x1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S4x1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v37) S1000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000 : Shape := ⟨1, ![500000]⟩
abbrev S4x128x128 : Shape := ⟨3, ![4, 128, 128]⟩
abbrev S4x128 : Shape := ⟨2, ![4, 128]⟩
abbrev S1024x128 : Shape := ⟨2, ![1024, 128]⟩
abbrev S128 : Shape := ⟨1, ![128]⟩
abbrev S1x500000 : Shape := ⟨2, ![1, 500000]⟩
abbrev S_ : Shape := ⟨0, ![]⟩
abbrev S500000x1 : Shape := ⟨2, ![500000, 1]⟩
abbrev S500000x128 : Shape := ⟨2, ![500000, 128]⟩
abbrev S1x128x128 : Shape := ⟨3, ![1, 128, 128]⟩
abbrev S128x128 : Shape := ⟨2, ![128, 128]⟩
abbrev S1x128 : Shape := ⟨2, ![1, 128]⟩
abbrev S50000x1024 : Shape := ⟨2, ![50000, 1024]⟩

abbrev nBuf : Space → Nat
  | .hbm => 207
  | .vmem => 0
  | .smem => 0
  | _ => 0

abbrev hbmTy0_0 (i : Nat) : BufTy := match i % 128 with
  | 0 => ⟨S50000x128, .f32⟩
  | 1 => ⟨S2x500000, .i32⟩
  | 2 => ⟨S500000, .i32⟩
  | 3 => ⟨S4x128x128, .f32⟩
  | 4 => ⟨S4x128x128, .f32⟩
  | 5 => ⟨S4x128, .f32⟩
  | 6 => ⟨S4x128x128, .f32⟩
  | 7 => ⟨S4x128x128, .f32⟩
  | 8 => ⟨S4x128, .f32⟩
  | 9 => ⟨S1024x128, .f32⟩
  | 10 => ⟨S128, .f32⟩
  | 11 => ⟨S1x500000, .i32⟩
  | 12 => ⟨S500000, .i32⟩
  | 13 => ⟨S1x500000, .i32⟩
  | 14 => ⟨S500000, .i32⟩
  | 15 => ⟨S500000, .i1⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x128, .f32⟩
  | 25 => ⟨S_, .i32⟩
  | 26 => ⟨S500000, .i32⟩
  | 27 => ⟨S500000, .i1⟩
  | 28 => ⟨S_, .i32⟩
  | 29 => ⟨S500000, .i32⟩
  | 30 => ⟨S500000, .i32⟩
  | 31 => ⟨S500000, .i32⟩
  | 32 => ⟨S500000x1, .i32⟩
  | 33 => ⟨S500000x128, .f32⟩
  | 34 => ⟨S_, .i32⟩
  | 35 => ⟨S500000, .i32⟩
  | 36 => ⟨S500000, .i1⟩
  | 37 => ⟨S500000, .i1⟩
  | 38 => ⟨S500000, .f32⟩
  | 39 => ⟨S500000x1, .f32⟩
  | 40 => ⟨S500000x128, .f32⟩
  | 41 => ⟨S500000x128, .f32⟩
  | 42 => ⟨S_, .f32⟩
  | 43 => ⟨S50000x128, .f32⟩
  | 44 => ⟨S500000x1, .i32⟩
  | 45 => ⟨S50000x128, .f32⟩
  | 46 => ⟨S500000x128, .f32⟩
  | 47 => ⟨S500000x128, .f32⟩
  | 48 => ⟨S_, .f32⟩
  | 49 => ⟨S50000x128, .f32⟩
  | 50 => ⟨S500000x1, .i32⟩
  | 51 => ⟨S50000x128, .f32⟩
  | 52 => ⟨S1x128x128, .f32⟩
  | 53 => ⟨S128x128, .f32⟩
  | 54 => ⟨S50000x128, .f32⟩
  | 55 => ⟨S1x128x128, .f32⟩
  | 56 => ⟨S128x128, .f32⟩
  | 57 => ⟨S50000x128, .f32⟩
  | 58 => ⟨S50000x128, .f32⟩
  | 59 => ⟨S1x128, .f32⟩
  | 60 => ⟨S128, .f32⟩
  | 61 => ⟨S1x128, .f32⟩
  | 62 => ⟨S50000x128, .f32⟩
  | 63 => ⟨S50000x128, .f32⟩
  | 64 => ⟨S1x128x128, .f32⟩
  | 65 => ⟨S128x128, .f32⟩
  | 66 => ⟨S50000x128, .f32⟩
  | 67 => ⟨S1x128x128, .f32⟩
  | 68 => ⟨S128x128, .f32⟩
  | 69 => ⟨S50000x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S_, .i32⟩
  | 77 => ⟨S500000, .i32⟩
  | 78 => ⟨S500000, .i1⟩
  | 79 => ⟨S500000, .i1⟩
  | 80 => ⟨S500000, .f32⟩
  | 81 => ⟨S500000x1, .f32⟩
  | 82 => ⟨S500000x128, .f32⟩
  | 83 => ⟨S500000x128, .f32⟩
  | 84 => ⟨S_, .f32⟩
  | 85 => ⟨S50000x128, .f32⟩
  | 86 => ⟨S500000x1, .i32⟩
  | 87 => ⟨S50000x128, .f32⟩
  | 88 => ⟨S500000x128, .f32⟩
  | 89 => ⟨S500000x128, .f32⟩
  | 90 => ⟨S_, .f32⟩
  | 91 => ⟨S50000x128, .f32⟩
  | 92 => ⟨S500000x1, .i32⟩
  | 93 => ⟨S50000x128, .f32⟩
  | 94 => ⟨S1x128x128, .f32⟩
  | 95 => ⟨S128x128, .f32⟩
  | 96 => ⟨S50000x128, .f32⟩
  | 97 => ⟨S1x128x128, .f32⟩
  | 98 => ⟨S128x128, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S1x128x128, .f32⟩
  | 107 => ⟨S128x128, .f32⟩
  | 108 => ⟨S50000x128, .f32⟩
  | 109 => ⟨S1x128x128, .f32⟩
  | 110 => ⟨S128x128, .f32⟩
  | 111 => ⟨S50000x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S_, .i32⟩
  | 119 => ⟨S500000, .i32⟩
  | 120 => ⟨S500000, .i1⟩
  | 121 => ⟨S500000, .i1⟩
  | 122 => ⟨S500000, .f32⟩
  | 123 => ⟨S500000x1, .f32⟩
  | 124 => ⟨S500000x128, .f32⟩
  | 125 => ⟨S500000x128, .f32⟩
  | 126 => ⟨S_, .f32⟩
  | 127 => ⟨S50000x128, .f32⟩
  | _ => ⟨S50000x128, .f32⟩

abbrev hbmTy0_1 (i : Nat) : BufTy := match i % 128 with
  | 0 => ⟨S500000x1, .i32⟩
  | 1 => ⟨S50000x128, .f32⟩
  | 2 => ⟨S500000x128, .f32⟩
  | 3 => ⟨S500000x128, .f32⟩
  | 4 => ⟨S_, .f32⟩
  | 5 => ⟨S50000x128, .f32⟩
  | 6 => ⟨S500000x1, .i32⟩
  | 7 => ⟨S50000x128, .f32⟩
  | 8 => ⟨S1x128x128, .f32⟩
  | 9 => ⟨S128x128, .f32⟩
  | 10 => ⟨S50000x128, .f32⟩
  | 11 => ⟨S1x128x128, .f32⟩
  | 12 => ⟨S128x128, .f32⟩
  | 13 => ⟨S50000x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S1x128x128, .f32⟩
  | 21 => ⟨S128x128, .f32⟩
  | 22 => ⟨S50000x128, .f32⟩
  | 23 => ⟨S1x128x128, .f32⟩
  | 24 => ⟨S128x128, .f32⟩
  | 25 => ⟨S50000x128, .f32⟩
  | 26 => ⟨S50000x128, .f32⟩
  | 27 => ⟨S1x128, .f32⟩
  | 28 => ⟨S128, .f32⟩
  | 29 => ⟨S1x128, .f32⟩
  | 30 => ⟨S50000x128, .f32⟩
  | 31 => ⟨S50000x128, .f32⟩
  | 32 => ⟨S_, .i32⟩
  | 33 => ⟨S500000, .i32⟩
  | 34 => ⟨S500000, .i1⟩
  | 35 => ⟨S500000, .i1⟩
  | 36 => ⟨S500000, .f32⟩
  | 37 => ⟨S500000x1, .f32⟩
  | 38 => ⟨S500000x128, .f32⟩
  | 39 => ⟨S500000x128, .f32⟩
  | 40 => ⟨S_, .f32⟩
  | 41 => ⟨S50000x128, .f32⟩
  | 42 => ⟨S500000x1, .i32⟩
  | 43 => ⟨S50000x128, .f32⟩
  | 44 => ⟨S500000x128, .f32⟩
  | 45 => ⟨S500000x128, .f32⟩
  | 46 => ⟨S_, .f32⟩
  | 47 => ⟨S50000x128, .f32⟩
  | 48 => ⟨S500000x1, .i32⟩
  | 49 => ⟨S50000x128, .f32⟩
  | 50 => ⟨S1x128x128, .f32⟩
  | 51 => ⟨S128x128, .f32⟩
  | 52 => ⟨S50000x128, .f32⟩
  | 53 => ⟨S1x128x128, .f32⟩
  | 54 => ⟨S128x128, .f32⟩
  | 55 => ⟨S50000x128, .f32⟩
  | 56 => ⟨S50000x128, .f32⟩
  | 57 => ⟨S1x128, .f32⟩
  | 58 => ⟨S128, .f32⟩
  | 59 => ⟨S1x128, .f32⟩
  | 60 => ⟨S50000x128, .f32⟩
  | 61 => ⟨S50000x128, .f32⟩
  | 62 => ⟨S1x128x128, .f32⟩
  | 63 => ⟨S128x128, .f32⟩
  | 64 => ⟨S50000x128, .f32⟩
  | 65 => ⟨S1x128x128, .f32⟩
  | 66 => ⟨S128x128, .f32⟩
  | 67 => ⟨S50000x128, .f32⟩
  | 68 => ⟨S50000x128, .f32⟩
  | 69 => ⟨S1x128, .f32⟩
  | 70 => ⟨S128, .f32⟩
  | 71 => ⟨S1x128, .f32⟩
  | 72 => ⟨S50000x128, .f32⟩
  | 73 => ⟨S50000x128, .f32⟩
  | 74 => ⟨S50000x1024, .f32⟩
  | 75 => ⟨S50000x128, .f32⟩
  | 76 => ⟨S1x128, .f32⟩
  | 77 => ⟨S50000x128, .f32⟩
  | 78 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_c_5 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_6 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_c_8 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_9 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_cst_10 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_c_11 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_v140 : Ref sig .tc := ⟨.hbm, 165, rfl⟩
abbrev main_v141 : Ref sig .tc := ⟨.hbm, 166, rfl⟩
abbrev main_v142 : Ref sig .tc := ⟨.hbm, 167, rfl⟩
abbrev main_cst_12 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_cst_13 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_v174 : Ref sig .tc := ⟨.hbm, 201, rfl⟩
abbrev main_v175 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S50000x128_S50000x128_S50000x128_S50000x128_S50000x128_S50000x128_S50000x128_S50000x128_S50000x1024_d1 : Shape.Concatenates [S50000x128, S50000x128, S50000x128, S50000x128, S50000x128, S50000x128, S50000x128, S50000x128] S50000x1024 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []
  dot_S50000x1024_S1024x128_S50000x128_1_0_0_1_n_n_wf : DotDims.WF S50000x1024 S1024x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf

class Facts : Prop extends Facts₀ where

variable [Facts]
-- ==== Proof.Spec.lean ====
import Idealize.ShloMosaic.PureOps.Ideal
import Idealize.ShloMosaic.Lib.ValueIdx
import Idealize.ShloMosaic.Lib.ValueIdxRank1

/-!
# The layer as one function of its arrays

For one node the layer computes, for each of the four edge types `t` and the two directions, a piece
`a · Wl + x · Wr + b` of 128 lanes — `a` the node's row of the aggregated neighbour features of that type and direction,
`x` the node's own feature row —, lays the eight pieces side by side (type 0 forward, type 0 backward, type 1 forward, …)
into a row of 1024 lanes, and applies the final linear map `row · Wlin + blin`. Every sum is a finite sum of products of
extended reals in a fixed association; nothing here needs the entries to be finite.
-/

noncomputable section

namespace Cert.Spec

open Idealize.ShloMosaic Idealize.ShloMosaic.ValueIdx

/-- A row of 128 lanes. -/
abbrev Row := Fin 128 → EReal
/-- A 128 × 128 weight matrix. -/
abbrev Mat := Fin 128 → Fin 128 → EReal

/-- One piece at lane `j`: `(a · Wl) j + (x · Wr) j + b j`, the two products added first. -/
def sage (a x : Row) (Wl Wr : Mat) (b : Row) (j : Fin 128) : EReal :=
  ((∑ i : Fin 128, a i * Wl i j) + (∑ i : Fin 128, x i * Wr i j)) + b j

/-- The eight pieces of one node, by piece number: piece `2 t` is type `t` forward, piece `2 t + 1` type `t` backward. -/
def emb (aA aB : Fin 4 → Row) (x : Row) (WAl WAr WBl WBr : Fin 4 → Mat) (bA bB : Fin 4 → Row) (p : Fin 8) : Row :=
  ![sage (aA 0) x (WAl 0) (WAr 0) (bA 0), sage (aB 0) x (WBl 0) (WBr 0) (bB 0),
    sage (aA 1) x (WAl 1) (WAr 1) (bA 1), sage (aB 1) x (WBl 1) (WBr 1) (bB 1),
    sage (aA 2) x (WAl 2) (WAr 2) (bA 2), sage (aB 2) x (WBl 2) (WBr 2) (bB 2),
    sage (aA 3) x (WAl 3) (WAr 3) (bA 3), sage (aB 3) x (WBl 3) (WBr 3) (bB 3)] p

/-- Lane `k` of the 1024-lane row: lane `k % 128` of piece `k / 128`. -/
def embLane (aA aB : Fin 4 → Row) (x : Row) (WAl WAr WBl WBr : Fin 4 → Mat) (bA bB : Fin 4 → Row) (k : Fin 1024) : EReal :=
  emb aA aB x WAl WAr WBl WBr bA bB ⟨k.val / 128, by have := k.isLt; omega⟩ ⟨k.val % 128, Nat.mod_lt _ (by decide)⟩

/-- The node's output at lane `c`: the 1024-lane row times `Wlin`, plus `blin`. -/
def out (aA aB : Fin 4 → Row) (x : Row) (WAl WAr WBl WBr : Fin 4 → Mat) (bA bB : Fin 4 → Row)
    (Wlin : Fin 1024 → Row) (blin : Row) (c : Fin 128) : EReal :=
  (∑ k : Fin 1024, embLane aA aB x WAl WAr WBl WBr bA bB k * Wlin k c) + blin c

/-- The whole result array from the arrays: node `n`'s output row from row `n` of the features and of the eight
    aggregated arrays (given by type, node and lane) and the weights. -/
def G (x : (⟨2, ![50000, 128]⟩ : Shape).Idx → EReal) (A B : Fin 4 → Fin 50000 → Row)
    (WAl WAr : (⟨3, ![4, 128, 128]⟩ : Shape).Idx → EReal) (bA : (⟨2, ![4, 128]⟩ : Shape).Idx → EReal)
    (WBl WBr : (⟨3, ![4, 128, 128]⟩ : Shape).Idx → EReal) (bB : (⟨2, ![4, 128]⟩ : Shape).Idx → EReal)
    (Wlin : (⟨2, ![1024, 128]⟩ : Shape).Idx → EReal) (blin : (⟨1, ![128]⟩ : Shape).Idx → EReal) :
    (⟨2, ![50000, 128]⟩ : Shape).Idx → EReal := fun i =>
  out (fun t => A t (i 0)) (fun t => B t (i 0)) (fun k => x (ix2 (i 0) k))
    (fun t a b => WAl (ix3 t a b)) (fun t a b => WAr (ix3 t a b)) (fun t a b => WBl (ix3 t a b)) (fun t a b => WBr (ix3 t a b))
    (fun t j => bA (ix2 t j)) (fun t j => bB (ix2 t j)) (fun k c => Wlin (ix2 k c)) (fun c => blin (ix1 c)) (i 1)

end Cert.Spec

end
-- ==== Proof.LibConv.lean ====
import Idealize.ShloMosaic.Lib.ValueLayout
import Idealize.ShloMosaic.Lib.StackMember
import Mathlib.Algebra.BigOperators.Fin

/-!
# Layout operations of a block-window convolution body, read at coordinates

What every convolution body of the two programs does around its matrix products, for arrays of any extents: a
three-axis array flattened to a matrix and back (row `y · B + x`), a weight piece `[1, 1, a, b]` read as the matrix
`[a, b]`, the bias row laid along every row, the matrix product with the plain dimension numbers into the zero matrix
as a sum over the contracted coordinate, and a sum over `Fin K` as a sum over `range K`.
-/

namespace Cert.LibConv

open Idealize.ShloMosaic Idealize.ShloMosaic.ValueIdx
open Finset

section Layout
variable {α : Type}

/-- An A × B × C array flattened to M × C (M = A · B) reads, at row `m = y · B + x` and column `k`, the array at
    `(y, x, k)`: both have the same place in row-major order. -/
theorem flatten3_apply {A B C M : ℕ} (v : (⟨3, ![A, B, C]⟩ : Shape).Idx → α)
    (h : (⟨3, ![A, B, C]⟩ : Shape).ShapeCasts ⟨2, ![M, C]⟩) (y : Fin A) (x : Fin B) (k : Fin C) (m : Fin M)
    (hm : m.val = y.val * B + x.val) :
    shapeCast ⟨2, ![M, C]⟩ v h (ix2 m k) = v (ix3 y x k) :=
  shapeCast_apply v h _ _ (by
    rw [Shape.rowMajor_val_three, Shape.rowMajor_val_two]
    show (y.val * B + x.val) * C + k.val = m.val * C + k.val
    rw [hm])

/-- An M × C matrix (M = A · B) read as an A × B × C array: at `(y, x, k)` it is the matrix at row
    `m = y · B + x`, column `k`. -/
theorem unflatten3_apply {A B C M : ℕ} (v : (⟨2, ![M, C]⟩ : Shape).Idx → α)
    (h : (⟨2, ![M, C]⟩ : Shape).ShapeCasts ⟨3, ![A, B, C]⟩) (y : Fin A) (x : Fin B) (k : Fin C) (m : Fin M)
    (hm : m.val = y.val * B + x.val) :
    shapeCast ⟨3, ![A, B, C]⟩ v h (ix3 y x k) = v (ix2 m k) :=
  shapeCast_apply v h _ _ (by
    rw [Shape.rowMajor_val_three, Shape.rowMajor_val_two]
    show m.val * C + k.val = (y.val * B + x.val) * C + k.val
    rw [hm])

/-- A `[1, 1, a, b]` array read as the matrix `[a, b]`: at `(i, j)` it is the array at `(0, 0, i, j)`. -/
theorem shapeCast_11ab_ab_apply {a b : ℕ} (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ _ (by
    rw [Shape.rowMajor_val_four, Shape.rowMajor_val_two]
    show ((0 * 1 + 0) * a + i.val) * b + j.val = i.val * b + j.val
    simp only [Nat.zero_mul, Nat.zero_add])

/-- The bias row `[1, 1, b]`, read as `[1, b]` and laid along each of `a` rows: at `(p, n)` it is the row's
    entry `n`. -/
theorem biasRows_apply {a b : ℕ} (v : (⟨3, ![1, 1, b]⟩ : Shape).Idx → α)
    (h1 : (⟨3, ![1, 1, b]⟩ : Shape).ShapeCasts ⟨2, ![1, b]⟩) (h2 : (⟨2, ![1, b]⟩ : Shape).ShapeCasts ⟨2, ![1, b]⟩)
    (hb : (⟨2, ![1, b]⟩ : Shape).Broadcasts ⟨2, ![a, b]⟩) (p : Fin a) (n : Fin b) :
    broadcastTo ⟨2, ![a, b]⟩ (shapeCast ⟨2, ![1, b]⟩ (shapeCast ⟨2, ![1, b]⟩ v h1) h2) hb (ix2 p n)
      = v (ix3 (0 : Fin 1) (0 : Fin 1) n) := by
  rw [broadcastTo_1b_ab_apply, shapeCast_self, shapeCast_1ab_ab_apply]

end Layout

/-- A product with the plain dimension numbers of an M × K by K × N product, accumulated into the zero matrix, read at
    `(m, n)`: the sum over the contracted coordinate. -/
theorem matmul_plain_zero_apply {M K N : ℕ} {φ₁ φ₂ : FTy} (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂) (m : Fin M)
    (n : Fin N) :
    matmul D none A B (constant (F := Ideal) ⟨2, ![M, N]⟩ .f32 0x00000000#32) (ix2 m n)
      = ∑ k : Fin K, A (ix2 m k) * B (ix2 k n) := by
  subst hD
  rw [matmul_zero_eq_dotGeneral]
  exact StackMember.dotGeneral_plain_apply none A B m n

/-- A sum over `Fin K` whose terms are a function of the coordinate's value is the sum over `range K`. -/
theorem sum_fin {K : ℕ} (f : Fin K → EReal) (g : ℕ → EReal) (h : ∀ k : Fin K, f k = g k.val) :
    ∑ k : Fin K, f k = ∑ k ∈ range K, g k :=
  (Finset.sum_congr rfl fun k _ => h k).trans (Fin.sum_univ_eq_sum_range g K)

end Cert.LibConv
-- ==== Proof.KBody.lean ====
import proofs.«426551_j20383914787325_1_alg».proof.Proof.Gen.KernelIdeal.Frame
import proofs.«426551_j20383914787325_1_alg».proof.Proof.Spec
import proofs.«426551_j20383914787325_1_alg».proof.Proof.LibConv
import Idealize.ShloMosaic.Lib.Pipeline.Value
import Idealize.ShloMosaic.Lib.ValueIdx
import Idealize.ShloMosaic.Lib.ValueLayout
import Idealize.ShloMosaic.PureOps.Ideal.Laws

/-!
# What the kernel body leaves in its output block, entry by entry

The body reads the row block of the features, the four-type row blocks of the two aggregated arrays and the weights,
forms the eight pieces, lays them side by side and applies the final linear map; at the extended reals every change of
float format is the identity and every matrix product into the zero matrix is the plain sum of products, so entry
`(r, c)` of the block it stores is the layer's output for block row `r` at lane `c`.
-/

set_option maxRecDepth 16384

noncomputable section

namespace Cert.KBody

open Cert.KernelIdeal Cert.KernelIdeal.Gen Idealize.ShloMosaic Idealize.ShloMosaic.ValueIdx

/-! ## Loads through a one-type slice -/

/-- A load of the `[1, n1, n2]` slice at offsets `(t, 0, 0)` of an `[n0, n1, n2]` block reads the block at
    `(t, ·, ·)`: along each axis the coordinate read is the offset plus the coordinate inside the slice. -/
theorem ld3_apply {n0 n1 n2 : ℕ} (X : Vec Ideal ⟨3, ![n0, n1, n2]⟩ .f32)
    (off : Fin 3 → ℕ) (inb : ∀ a, off a + (![1, n1, n2] : Fin 3 → ℕ) a ≤ (⟨3, ![n0, n1, n2]⟩ : Shape).size a)
    (t : Fin n0) (h0 : off 0 = t.val) (h1 : off 1 = 0) (h2 : off 2 = 0) (u : Fin 1) (r : Fin n1) (k : Fin n2) :
    View.ld X (Rect.unit (s := ⟨3, ![n0, n1, n2]⟩) off ![1, n1, n2] inb) (ix3 u r k) = X (ix3 t r k) := by
  show X _ = X _
  congr 1
  funext a
  apply Fin.ext
  match a with
  | ⟨0, _⟩ => show off 0 + 1 * u.val = t.val; omega
  | ⟨1, _⟩ => show off 1 + 1 * r.val = r.val; omega
  | ⟨2, _⟩ => show off 2 + 1 * k.val = k.val; omega

/-- A load of the `[1, n1]` slice at offsets `(t, 0)` of an `[n0, n1]` block reads the block's row `t`. -/
theorem ld2_apply {n0 n1 : ℕ} (X : Vec Ideal ⟨2, ![n0, n1]⟩ .f32)
    (off : Fin 2 → ℕ) (inb : ∀ a, off a + (![1, n1] : Fin 2 → ℕ) a ≤ (⟨2, ![n0, n1]⟩ : Shape).size a)
    (t : Fin n0) (h0 : off 0 = t.val) (h1 : off 1 = 0) (u : Fin 1) (k : Fin n1) :
    View.ld X (Rect.unit (s := ⟨2, ![n0, n1]⟩) off ![1, n1] inb) (ix2 u k) = X (ix2 t k) := by
  show X _ = X _
  congr 1
  funext a
  apply Fin.ext
  match a with
  | ⟨0, _⟩ => show off 0 + 1 * u.val = t.val; omega
  | ⟨1, _⟩ => show off 1 + 1 * k.val = k.val; omega

/-- The zero offsets of a rank-2 whole-block access, as the constant function. -/
theorem zero2 : (![0, 0] : Fin 2 → ℕ) = fun _ => 0 := by
  funext a; match a with | ⟨0, _⟩ => rfl | ⟨1, _⟩ => rfl

/-- The zero offset of a rank-1 whole-block access, as the constant function. -/
theorem zero1 : (![0] : Fin 1 → ℕ) = fun _ => 0 := by
  funext a; match a with | ⟨0, _⟩ => rfl

/-! ## One piece -/

/-- A forward piece at row `r`, lane `j`: with the aggregated rows, the two weight matrices and the bias of type `t`
    read through the type-`t` slices, it is `a · Wl + x · Wr + b` of the specification. Both products are into the zero
    matrix, so each is the sum over the contracted lane; the bias row is laid along every row. -/
theorem fwd_piece (xx : FVec Ideal S1000x128 .bf16) (A : Vec Ideal S4x1000x128 .f32) (Wl Wr : Vec Ideal S4x128x128 .f32)
    (B : Vec Ideal S4x128 .f32) (t : Fin 4) (o3 : Fin 3 → ℕ) (o2 : Fin 2 → ℕ)
    (inbA : ∀ a, o3 a + S1x1000x128.size a ≤ S4x1000x128.size a)
    (inbW : ∀ a, o3 a + S1x128x128.size a ≤ S4x128x128.size a)
    (inbB : ∀ a, o2 a + S1x128.size a ≤ S4x128.size a)
    (h30 : o3 0 = t.val) (h31 : o3 1 = 0) (h32 : o3 2 = 0) (h20 : o2 0 = t.val) (h21 : o2 1 = 0)
    (r : Fin 1000) (j : Fin 128) :
    k0_pay10 xx (View.ld A (Rect.unit (s := S4x1000x128) o3 S1x1000x128.size inbA))
        (View.ld Wl (Rect.unit (s := S4x128x128) o3 S1x128x128.size inbW))
        (View.ld Wr (Rect.unit (s := S4x128x128) o3 S1x128x128.size inbW))
        (View.ld B (Rect.unit (s := S4x128) o2 S1x128.size inbB)) (ix2 r j)
      = Cert.Spec.sage (fun k => A (ix3 t r k)) (fun k => xx (ix2 r k)) (fun a b => Wl (ix3 t a b))
          (fun a b => Wr (ix3 t a b)) (fun j' => B (ix2 t j')) j := by
  unfold k0_pay10 Cert.Spec.sage
  rw [addf_apply, addf_apply, Cert.LibConv.matmul_plain_zero_apply dot_S1000x128_S128x128_S1000x128_1_0_0_1_n_n rfl,
    Cert.LibConv.matmul_plain_zero_apply dot_S1000x128_S128x128_S1000x128_1_0_0_1_n_n rfl,
    broadcastTo_1b_ab_apply, shapeCast_a_1a_apply, shapeCast_1a_a_apply, ld2_apply B o2 inbB t h20 h21]
  refine congrArg₂ (· + ·) (congrArg₂ (· + ·) (Finset.sum_congr rfl fun i _ => congrArg₂ (· * ·) ?_ ?_)
    (Finset.sum_congr rfl fun i _ => congrArg₂ (· * ·) rfl ?_)) rfl
  · rw [truncf_apply, shapeCast_1ab_ab_apply, ld3_apply A o3 inbA t h30 h31 h32]
  · rw [truncf_apply, shapeCast_1ab_ab_apply, ld3_apply Wl o3 inbW t h30 h31 h32]
  · rw [truncf_apply, shapeCast_1ab_ab_apply, ld3_apply Wr o3 inbW t h30 h31 h32]

/-- A backward piece at row `r`, lane `j`: the product of the aggregated rows with the left weights is formed first,
    the product of the node rows with the right weights is added to it, then the bias row. -/
theorem bwd_piece (xx : FVec Ideal S1000x128 .bf16) (A : Vec Ideal S4x1000x128 .f32) (Wl Wr : Vec Ideal S4x128x128 .f32)
    (B : Vec Ideal S4x128 .f32) (t : Fin 4) (o3 : Fin 3 → ℕ) (o2 : Fin 2 → ℕ)
    (inbA : ∀ a, o3 a + S1x1000x128.size a ≤ S4x1000x128.size a)
    (inbW : ∀ a, o3 a + S1x128x128.size a ≤ S4x128x128.size a)
    (inbB : ∀ a, o2 a + S1x128.size a ≤ S4x128.size a)
    (h30 : o3 0 = t.val) (h31 : o3 1 = 0) (h32 : o3 2 = 0) (h20 : o2 0 = t.val) (h21 : o2 1 = 0)
    (r : Fin 1000) (j : Fin 128) :
    k0_pay7 xx (k0_pay3 (View.ld Wr (Rect.unit (s := S4x128x128) o3 S1x128x128.size inbW)))
        (k0_pay4 (View.ld B (Rect.unit (s := S4x128) o2 S1x128.size inbB)))
        (k0_pay6 (View.ld A (Rect.unit (s := S4x1000x128) o3 S1x1000x128.size inbA))
          (View.ld Wl (Rect.unit (s := S4x128x128) o3 S1x128x128.size inbW)))
        (constant S1000x128 .f32 0x00000000#32) (ix2 r j)
      = Cert.Spec.sage (fun k => A (ix3 t r k)) (fun k => xx (ix2 r k)) (fun a b => Wl (ix3 t a b))
          (fun a b => Wr (ix3 t a b)) (fun j' => B (ix2 t j')) j := by
  unfold k0_pay7 k0_pay3 k0_pay4 k0_pay6 Cert.Spec.sage
  rw [addf_apply, addf_apply, Cert.LibConv.matmul_plain_zero_apply dot_S1000x128_S128x128_S1000x128_1_0_0_1_n_n rfl,
    Cert.LibConv.matmul_plain_zero_apply dot_S1000x128_S128x128_S1000x128_1_0_0_1_n_n rfl,
    broadcastTo_1b_ab_apply, shapeCast_a_1a_apply, shapeCast_1a_a_apply, ld2_apply B o2 inbB t h20 h21]
  refine congrArg₂ (· + ·) (congrArg₂ (· + ·) (Finset.sum_congr rfl fun i _ => congrArg₂ (· * ·) ?_ ?_)
    (Finset.sum_congr rfl fun i _ => congrArg₂ (· * ·) rfl ?_)) rfl
  · rw [truncf_apply, shapeCast_1ab_ab_apply, ld3_apply A o3 inbA t h30 h31 h32]
  · rw [truncf_apply, shapeCast_1ab_ab_apply, ld3_apply Wl o3 inbW t h30 h31 h32]
  · rw [truncf_apply, shapeCast_1ab_ab_apply, ld3_apply Wr o3 inbW t h30 h31 h32]

/-! ## The eight pieces side by side, and the final linear map -/

/-- Eight `[1000, 128]` pieces laid side by side along the lanes, read at row `r`, lane `k`: piece `k / 128` at lane
    `k % 128`. -/
theorem cat8_apply {α : Type} (p0 p1 p2 p3 p4 p5 p6 p7 : S1000x128.Idx → α)
    (h : Shape.Concatenates [S1000x128, S1000x128, S1000x128, S1000x128, S1000x128, S1000x128, S1000x128, S1000x128]
      S1000x1024 1) (r : Fin 1000) (k : Fin 1024) :
    concatenate S1000x1024 1 [⟨S1000x128, p0⟩, ⟨S1000x128, p1⟩, ⟨S1000x128, p2⟩, ⟨S1000x128, p3⟩, ⟨S1000x128, p4⟩,
        ⟨S1000x128, p5⟩, ⟨S1000x128, p6⟩, ⟨S1000x128, p7⟩] h (ix2 r k)
      = (![p0, p1, p2, p3, p4, p5, p6, p7] : Fin 8 → S1000x128.Idx → α) ⟨k.val / 128, by have := k.isLt; omega⟩
          (ix2 r ⟨k.val % 128, Nat.mod_lt _ (by decide)⟩) := by
  refine concatenate_ofFn_apply (t := S1000x1024) (s₁ := S1000x128) 1
    (![p0, p1, p2, p3, p4, p5, p6, p7] : Fin 8 → S1000x128.Idx → α) h rfl 128 rfl
    (ix2 r k) ⟨k.val / 128, by have := k.isLt; omega⟩ rfl (ix2 r ⟨k.val % 128, Nat.mod_lt _ (by decide)⟩) rfl
    (fun b hb => ?_)
  match b with
  | ⟨0, _⟩ => rfl
  | ⟨1, _⟩ => exact absurd rfl hb

/-- The stored value at row `r`, lane `c`, from the first seven pieces and the operands of the eighth: the 1024-lane
    row — lane `k` is lane `k % 128` of piece `k / 128` — times the final weights, plus the final bias. -/
theorem lin_apply (v1 : FVec Ideal S1000x128 .bf16) (p0 p1 p2 p3 p4 p5 : FVec Ideal S1000x128 .f32)
    (v121 : FVec Ideal S128x128 .bf16) (v125 : FVec Ideal S128 .f32) (p6 v132 cst : FVec Ideal S1000x128 .f32)
    (W : Vec Ideal S1024x128 .f32) (bl : Vec Ideal S128 .f32) (r : Fin 1000) (c : Fin 128) :
    k0_pay1 v1 p0 p1 p2 p3 p4 p5 v121 v125 p6 v132 cst W bl (ix2 r c)
      = (∑ k : Fin 1024,
          (![p0, p1, p2, p3, p4, p5, p6, k0_pay7 v1 v121 v125 v132 cst] : Fin 8 → S1000x128.Idx → EReal)
              ⟨k.val / 128, by have := k.isLt; omega⟩ (ix2 r ⟨k.val % 128, Nat.mod_lt _ (by decide)⟩)
            * W (ix2 k c)) + bl (ix1 c) := by
  unfold k0_pay1
  rw [addf_apply, Cert.LibConv.matmul_plain_zero_apply dot_S1000x1024_S1024x128_S1000x128_1_0_0_1_n_n rfl,
    broadcastTo_1b_ab_apply, shapeCast_a_1a_apply]
  refine congrArg₂ (· + ·) (Finset.sum_congr rfl fun k _ => congrArg₂ (· * ·) ?_ rfl) rfl
  rw [truncf_apply]
  exact cat8_apply p0 p1 p2 p3 p4 p5 p6 (k0_pay7 v1 v121 v125 v132 cst) _ r k

/-- Piece `p` of a node's eight, at lane `j`, is piece `p` of the specification: pieces `2 t` and `2 t + 1` are the
    forward and the backward piece of type `t`, read through the type-`t` slices of the blocks. -/
theorem pieces_apply (v0 : Vec Ideal S1000x128 .f32) (x1 x2 : Vec Ideal S4x1000x128 .f32)
    (x3 x4 : Vec Ideal S4x128x128 .f32) (x5 : Vec Ideal S4x128 .f32) (x6 x7 : Vec Ideal S4x128x128 .f32)
    (x8 : Vec Ideal S4x128 .f32) (r : Fin 1000) (p : Fin 8) (j : Fin 128) :
    (![k0_pay5 v0 (View.ld x1 r0_1) (View.ld x3 r0_2) (View.ld x4 r0_2) (View.ld x5 r0_3),
       k0_pay7 (k0_pay2 v0) (k0_pay3 (View.ld x7 r0_2)) (k0_pay4 (View.ld x8 r0_3))
         (k0_pay6 (View.ld x2 r0_1) (View.ld x6 r0_2)) (constant S1000x128 .f32 0x00000000#32),
       k0_pay10 (k0_pay2 v0) (View.ld x1 r0_4) (View.ld x3 r0_5) (View.ld x4 r0_5) (View.ld x5 r0_6),
       k0_pay12 (k0_pay2 v0) (k0_pay8 (View.ld x7 r0_5)) (k0_pay9 (View.ld x8 r0_6))
         (k0_pay11 (View.ld x2 r0_4) (View.ld x6 r0_5)) (constant S1000x128 .f32 0x00000000#32),
       k0_pay15 (k0_pay2 v0) (View.ld x1 r0_7) (View.ld x3 r0_8) (View.ld x4 r0_8) (View.ld x5 r0_9),
       k0_pay17 (k0_pay2 v0) (k0_pay13 (View.ld x7 r0_8)) (k0_pay14 (View.ld x8 r0_9))
         (k0_pay16 (View.ld x2 r0_7) (View.ld x6 r0_8)) (constant S1000x128 .f32 0x00000000#32),
       k0_pay20 (k0_pay2 v0) (View.ld x1 r0_10) (View.ld x3 r0_11) (View.ld x4 r0_11) (View.ld x5 r0_12),
       k0_pay7 (k0_pay2 v0) (k0_pay18 (View.ld x7 r0_11)) (k0_pay19 (View.ld x8 r0_12))
         (k0_pay21 (View.ld x2 r0_10) (View.ld x6 r0_11)) (constant S1000x128 .f32 0x00000000#32)]
        : Fin 8 → S1000x128.Idx → EReal) p (ix2 r j)
      = Cert.Spec.emb (fun t k => x1 (ix3 t r k)) (fun t k => x2 (ix3 t r k)) (fun k => v0 (ix2 r k))
          (fun t a b => x3 (ix3 t a b)) (fun t a b => x4 (ix3 t a b))
          (fun t a b => x6 (ix3 t a b)) (fun t a b => x7 (ix3 t a b))
          (fun t j' => x5 (ix2 t j')) (fun t j' => x8 (ix2 t j')) p j := by
  unfold Cert.Spec.emb
  fin_cases p
  · exact fwd_piece (k0_pay2 v0) x1 x3 x4 x5 0 ![0, 0, 0] ![0, 0] _ _ _ rfl rfl rfl rfl rfl r j
  · exact bwd_piece (k0_pay2 v0) x2 x6 x7 x8 0 ![0, 0, 0] ![0, 0] _ _ _ rfl rfl rfl rfl rfl r j
  · exact fwd_piece (k0_pay2 v0) x1 x3 x4 x5 1 ![1, 0, 0] ![1, 0] _ _ _ rfl rfl rfl rfl rfl r j
  · exact bwd_piece (k0_pay2 v0) x2 x6 x7 x8 1 ![1, 0, 0] ![1, 0] _ _ _ rfl rfl rfl rfl rfl r j
  · exact fwd_piece (k0_pay2 v0) x1 x3 x4 x5 2 ![2, 0, 0] ![2, 0] _ _ _ rfl rfl rfl rfl rfl r j
  · exact bwd_piece (k0_pay2 v0) x2 x6 x7 x8 2 ![2, 0, 0] ![2, 0] _ _ _ rfl rfl rfl rfl rfl r j
  · exact fwd_piece (k0_pay2 v0) x1 x3 x4 x5 3 ![3, 0, 0] ![3, 0] _ _ _ rfl rfl rfl rfl rfl r j
  · exact bwd_piece (k0_pay2 v0) x2 x6 x7 x8 3 ![3, 0, 0] ![3, 0] _ _ _ rfl rfl rfl rfl rfl r j

/-! ## The block the body stores -/

/-- Entry `(r, c)` of the block the body stores, from the blocks it loads. -/
theorem out_apply (x0 : Vec Ideal S1000x128 .f32) (x1 x2 : Vec Ideal S4x1000x128 .f32)
    (x3 x4 : Vec Ideal S4x128x128 .f32) (x5 : Vec Ideal S4x128 .f32) (x6 x7 : Vec Ideal S4x128x128 .f32)
    (x8 : Vec Ideal S4x128 .f32) (x9 : Vec Ideal S1024x128 .f32) (x10 : Vec Ideal S128 .f32)
    (r : Fin 1000) (c : Fin 128) :
    out0_11 (F := Ideal) x0 x1 x2 x3 x4 x5 x6 x7 x8 x9 x10 (ix2 r c)
      = Cert.Spec.out (fun t k => x1 (ix3 t r k)) (fun t k => x2 (ix3 t r k)) (fun k => x0 (ix2 r k))
          (fun t a b => x3 (ix3 t a b)) (fun t a b => x4 (ix3 t a b))
          (fun t a b => x6 (ix3 t a b)) (fun t a b => x7 (ix3 t a b))
          (fun t j => x5 (ix2 t j)) (fun t j => x8 (ix2 t j))
          (fun k c' => x9 (ix2 k c')) (fun c' => x10 (ix1 c')) c := by
  unfold out0_11
  refine (congrFun (View.canon_unit_zero (Val := Elt Ideal) (S := S1000x128) (e := .f32) zero2
    inb_S1000x128_S1000x128_0_0 _) (ix2 r c)).trans ?_
  rw [View.ld_unit_zero (Val := Elt Ideal) (S := S1000x128) zero2 inb_S1000x128_S1000x128_0_0 x0,
    View.ld_unit_zero (Val := Elt Ideal) (S := S1024x128) zero2 inb_S1024x128_S1024x128_0_0 x9,
    View.ld_unit_zero (Val := Elt Ideal) (S := S128) zero1 inb_S128_S128_0 x10]
  refine (lin_apply _ _ _ _ _ _ _ _ _ _ _ _ _ _ r c).trans ?_
  unfold Cert.Spec.out Cert.Spec.embLane
  refine congrArg₂ (· + ·) (Finset.sum_congr rfl fun k _ => congrArg₂ (· * ·) ?_ rfl) rfl
  exact pieces_apply x0 x1 x2 x3 x4 x5 x6 x7 x8 r _ _

end Cert.KBody

end
-- ==== Proof.KFinal.lean ====
import proofs.«426551_j20383914787325_1_alg».proof.Proof.Gen.KernelIdeal.Value
import proofs.«426551_j20383914787325_1_alg».proof.Proof.KBody
import proofs.«426551_j20383914787325_1_alg».proof.Proof.Spec
import Idealize.ShloMosaic.Lib.Pipeline.Value
import Idealize.ShloMosaic.Lib.ValueIdx

/-!
# The kernel's result array as one function of the arrays its region finds

Grid point `t` of the fifty works on rows `1000 t … 1000 t + 999`: it is handed that row block of the features and of
the two aggregated arrays (all four types of it) and the weights whole, and writes that row block of the result. The
body's stored block is, entry by entry, the layer's output for the block's rows; the fifty blocks tile the result array;
so the array ends holding the layer's output at every node.
-/

set_option maxRecDepth 16384

noncomputable section

namespace Cert.KFinal

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer's output from the arrays as the region finds them: the features, the two aggregated arrays read at
    (type, node, lane), and the weights. -/
def result (c : Dev nD) : S50000x128.Idx → EReal :=
  Cert.Spec.G (V m c main_arg0)
    (fun t n k => (V m c main_v34 : S4x50000x128.Idx → EReal) (ix3 t n k))
    (fun t n k => (V m c main_v36 : S4x50000x128.Idx → EReal) (ix3 t n k))
    (V m c main_arg3) (V m c main_arg4) (V m c main_arg5) (V m c main_arg6) (V m c main_arg7) (V m c main_arg8)
    (V m c main_arg9) (V m c main_arg10)

/-- The layer's output at node `n`, lane `cc`, written out. -/
theorem result_apply (c : Dev nD) (n : Fin 50000) (cc : Fin 128) :
    result m c (ix2 n cc)
      = Cert.Spec.out (fun t k => (V m c main_v34 : S4x50000x128.Idx → EReal) (ix3 t n k))
          (fun t k => (V m c main_v36 : S4x50000x128.Idx → EReal) (ix3 t n k))
          (fun k => (V m c main_arg0 : S50000x128.Idx → EReal) (ix2 n k))
          (fun t a b => (V m c main_arg3 : S4x128x128.Idx → EReal) (ix3 t a b))
          (fun t a b => (V m c main_arg4 : S4x128x128.Idx → EReal) (ix3 t a b))
          (fun t a b => (V m c main_arg6 : S4x128x128.Idx → EReal) (ix3 t a b))
          (fun t a b => (V m c main_arg7 : S4x128x128.Idx → EReal) (ix3 t a b))
          (fun t j => (V m c main_arg5 : S4x128.Idx → EReal) (ix2 t j))
          (fun t j => (V m c main_arg8 : S4x128.Idx → EReal) (ix2 t j))
          (fun k c' => (V m c main_arg9 : S1024x128.Idx → EReal) (ix2 k c'))
          (fun c' => (V m c main_arg10 : S128.Idx → EReal) (ix1 c')) cc := rfl

/-- The printed index maps over the fifty points: the features' and the result's row block is the point's number, the
    aggregated arrays' block is (all types, the point's row block), and every weight window stays at its one block. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ (∀ a : Fin 3, win0_3.index t a = 0) ∧ (∀ a : Fin 3, win0_4.index t a = 0) ∧ (∀ a : Fin 2, win0_5.index t a = 0)
    ∧ (∀ a : Fin 3, win0_6.index t a = 0) ∧ (∀ a : Fin 3, win0_7.index t a = 0) ∧ (∀ a : Fin 2, win0_8.index t a = 0)
    ∧ (∀ a : Fin 2, win0_9.index t a = 0) ∧ (∀ a : Fin 1, win0_10.index t a = 0)
    ∧ win0_11.index t (0 : Fin 2) = t.val ∧ win0_11.index t (1 : Fin 2) = 0 :=
  (by decide +kernel : ∀ t : Fin grid0.N, _)

/-- Row `r` of point `t`'s block is row `1000 t + r` of the array. -/
def rowOf (t : Fin cfg0.N) (r : Fin 1000) : Fin 50000 :=
  ⟨t.val * 1000 + r.val, by have := t.isLt; have := r.isLt; have : cfg0.N = 50 := N_0; omega⟩

/-- The features' block at a point, at an entry. -/
theorem blk0 (c : Dev nD) (t : Fin cfg0.N) (r : Fin 1000) (k : Fin 128) :
    (iblk m c 0 t : S1000x128.Idx → EReal) (ix2 r k) = (V m c main_arg0 : S50000x128.Idx → EReal) (ix2 (rowOf t r) k) := by
  obtain ⟨h00, h01, -⟩ := idx_facts t
  show V m c main_arg0 (((cfg0.win 0).blk t).view.emb (ix2 r k)) = V m c main_arg0 (ix2 (rowOf t r) k)
  refine congrArg (V m c main_arg0) (funext fun a => Fin.ext ?_)
  match a with
  | ⟨0, _⟩ => show win0_0.index t (0 : Fin 2) * 1000 + 1 * r.val = t.val * 1000 + r.val; rw [h00]; omega
  | ⟨1, _⟩ => show win0_0.index t (1 : Fin 2) * 128 + 1 * k.val = k.val; rw [h01]; omega

/-- The forward aggregated array's block at a point, at an entry. -/
theorem blk1 (c : Dev nD) (t : Fin cfg0.N) (tt : Fin 4) (r : Fin 1000) (k : Fin 128) :
    (iblk m c 1 t : S4x1000x128.Idx → EReal) (ix3 tt r k) = (V m c main_v34 : S4x50000x128.Idx → EReal) (ix3 tt (rowOf t r) k) := by
  obtain ⟨-, -, h10, h11, h12, -⟩ := idx_facts t
  show V m c main_v34 (((cfg0.win 1).blk t).view.emb (ix3 tt r k)) = V m c main_v34 (ix3 tt (rowOf t r) k)
  refine congrArg (V m c main_v34) (funext fun a => Fin.ext ?_)
  match a with
  | ⟨0, _⟩ => show win0_1.index t (0 : Fin 3) * 4 + 1 * tt.val = tt.val; rw [h10]; omega
  | ⟨1, _⟩ => show win0_1.index t (1 : Fin 3) * 1000 + 1 * r.val = t.val * 1000 + r.val; rw [h11]; omega
  | ⟨2, _⟩ => show win0_1.index t (2 : Fin 3) * 128 + 1 * k.val = k.val; rw [h12]; omega

/-- The backward aggregated array's block at a point, at an entry. -/
theorem blk2 (c : Dev nD) (t : Fin cfg0.N) (tt : Fin 4) (r : Fin 1000) (k : Fin 128) :
    (iblk m c 2 t : S4x1000x128.Idx → EReal) (ix3 tt r k) = (V m c main_v36 : S4x50000x128.Idx → EReal) (ix3 tt (rowOf t r) k) := by
  obtain ⟨-, -, -, -, -, h20, h21, h22, -⟩ := idx_facts t
  show V m c main_v36 (((cfg0.win 2).blk t).view.emb (ix3 tt r k)) = V m c main_v36 (ix3 tt (rowOf t r) k)
  refine congrArg (V m c main_v36) (funext fun a => Fin.ext ?_)
  match a with
  | ⟨0, _⟩ => show win0_2.index t (0 : Fin 3) * 4 + 1 * tt.val = tt.val; rw [h20]; omega
  | ⟨1, _⟩ => show win0_2.index t (1 : Fin 3) * 1000 + 1 * r.val = t.val * 1000 + r.val; rw [h21]; omega
  | ⟨2, _⟩ => show win0_2.index t (2 : Fin 3) * 128 + 1 * k.val = k.val; rw [h22]; omega

/-! A weight window's one block is its whole array. -/

theorem whole3 (c : Dev nD) (t : Fin cfg0.N) : (iblk m c 3 t : S4x128x128.Idx → EReal) = V m c main_arg3 := by
  obtain ⟨-, -, -, -, -, -, -, -, h3, h4, h5, h6, h7, h8, h9, h10, -, -⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 3) * 4 + 1 * (y 0).val = (y 0).val; rw [h3 0]; omega
  | ⟨1, _⟩ => show win0_3.index t (1 : Fin 3) * 128 + 1 * (y 1).val = (y 1).val; rw [h3 1]; omega
  | ⟨2, _⟩ => show win0_3.index t (2 : Fin 3) * 128 + 1 * (y 2).val = (y 2).val; rw [h3 2]; omega

theorem whole4 (c : Dev nD) (t : Fin cfg0.N) : (iblk m c 4 t : S4x128x128.Idx → EReal) = V m c main_arg4 := by
  obtain ⟨-, -, -, -, -, -, -, -, h3, h4, h5, h6, h7, h8, h9, h10, -, -⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 3) * 4 + 1 * (y 0).val = (y 0).val; rw [h4 0]; omega
  | ⟨1, _⟩ => show win0_4.index t (1 : Fin 3) * 128 + 1 * (y 1).val = (y 1).val; rw [h4 1]; omega
  | ⟨2, _⟩ => show win0_4.index t (2 : Fin 3) * 128 + 1 * (y 2).val = (y 2).val; rw [h4 2]; omega

theorem whole5 (c : Dev nD) (t : Fin cfg0.N) : (iblk m c 5 t : S4x128.Idx → EReal) = V m c main_arg5 := by
  obtain ⟨-, -, -, -, -, -, -, -, h3, h4, h5, h6, h7, h8, h9, h10, -, -⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 4 + 1 * (y 0).val = (y 0).val; rw [h5 0]; omega
  | ⟨1, _⟩ => show win0_5.index t (1 : Fin 2) * 128 + 1 * (y 1).val = (y 1).val; rw [h5 1]; omega

theorem whole6 (c : Dev nD) (t : Fin cfg0.N) : (iblk m c 6 t : S4x128x128.Idx → EReal) = V m c main_arg6 := by
  obtain ⟨-, -, -, -, -, -, -, -, h3, h4, h5, h6, h7, h8, h9, h10, -, -⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 3) * 4 + 1 * (y 0).val = (y 0).val; rw [h6 0]; omega
  | ⟨1, _⟩ => show win0_6.index t (1 : Fin 3) * 128 + 1 * (y 1).val = (y 1).val; rw [h6 1]; omega
  | ⟨2, _⟩ => show win0_6.index t (2 : Fin 3) * 128 + 1 * (y 2).val = (y 2).val; rw [h6 2]; omega

theorem whole7 (c : Dev nD) (t : Fin cfg0.N) : (iblk m c 7 t : S4x128x128.Idx → EReal) = V m c main_arg7 := by
  obtain ⟨-, -, -, -, -, -, -, -, h3, h4, h5, h6, h7, h8, h9, h10, -, -⟩ := idx_facts t
  funext y
  show V m c main_arg7 (((cfg0.win 7).blk t).view.emb y) = V m c main_arg7 y
  refine congrArg (V m c main_arg7) (funext fun a => Fin.ext ?_)
  match a with
  | ⟨0, _⟩ => show win0_7.index t (0 : Fin 3) * 4 + 1 * (y 0).val = (y 0).val; rw [h7 0]; omega
  | ⟨1, _⟩ => show win0_7.index t (1 : Fin 3) * 128 + 1 * (y 1).val = (y 1).val; rw [h7 1]; omega
  | ⟨2, _⟩ => show win0_7.index t (2 : Fin 3) * 128 + 1 * (y 2).val = (y 2).val; rw [h7 2]; omega

theorem whole8 (c : Dev nD) (t : Fin cfg0.N) : (iblk m c 8 t : S4x128.Idx → EReal) = V m c main_arg8 := by
  obtain ⟨-, -, -, -, -, -, -, -, h3, h4, h5, h6, h7, h8, h9, h10, -, -⟩ := idx_facts t
  funext y
  show V m c main_arg8 (((cfg0.win 8).blk t).view.emb y) = V m c main_arg8 y
  refine congrArg (V m c main_arg8) (funext fun a => Fin.ext ?_)
  match a with
  | ⟨0, _⟩ => show win0_8.index t (0 : Fin 2) * 4 + 1 * (y 0).val = (y 0).val; rw [h8 0]; omega
  | ⟨1, _⟩ => show win0_8.index t (1 : Fin 2) * 128 + 1 * (y 1).val = (y 1).val; rw [h8 1]; omega

theorem whole9 (c : Dev nD) (t : Fin cfg0.N) : (iblk m c 9 t : S1024x128.Idx → EReal) = V m c main_arg9 := by
  obtain ⟨-, -, -, -, -, -, -, -, h3, h4, h5, h6, h7, h8, h9, h10, -, -⟩ := idx_facts t
  funext y
  show V m c main_arg9 (((cfg0.win 9).blk t).view.emb y) = V m c main_arg9 y
  refine congrArg (V m c main_arg9) (funext fun a => Fin.ext ?_)
  match a with
  | ⟨0, _⟩ => show win0_9.index t (0 : Fin 2) * 1024 + 1 * (y 0).val = (y 0).val; rw [h9 0]; omega
  | ⟨1, _⟩ => show win0_9.index t (1 : Fin 2) * 128 + 1 * (y 1).val = (y 1).val; rw [h9 1]; omega

theorem whole10 (c : Dev nD) (t : Fin cfg0.N) : (iblk m c 10 t : S128.Idx → EReal) = V m c main_arg10 := by
  obtain ⟨-, -, -, -, -, -, -, -, h3, h4, h5, h6, h7, h8, h9, h10, -, -⟩ := idx_facts t
  funext y
  show V m c main_arg10 (((cfg0.win 10).blk t).view.emb y) = V m c main_arg10 y
  refine congrArg (V m c main_arg10) (funext fun a => Fin.ext ?_)
  match a with
  | ⟨0, _⟩ => show win0_10.index t (0 : Fin 1) * 128 + 1 * (y 0).val = (y 0).val; rw [h10 0]; omega

/-- What point `t` writes back is block `t` of the layer's output. -/
theorem flushed_eq (c : Dev nD) (t : Fin cfg0.N) :
    (dats m 0 c).flushed 11 t = ((cfg0.win 11).blk t).view.read (Elt Ideal) (result m c) := by
  rw [Value.flushed11]
  funext j
  obtain ⟨r, cc, rfl⟩ : ∃ (r : Fin 1000) (cc : Fin 128), j = ix2 r cc := ⟨j 0, j 1, eq_ix2 j⟩
  show out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r cc)
    = result m c (((cfg0.win 11).blk t).view.emb (ix2 r cc))
  refine (Cert.KBody.out_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) r cc).trans ?_
  obtain ⟨-, -, -, -, -, -, -, -, -, -, -, -, -, -, -, -, hb0, hb1⟩ := idx_facts t
  have hn : ((cfg0.win 11).blk t).view.emb (ix2 r cc) = ix2 (rowOf t r) cc := by
    funext a; apply Fin.ext
    match a with
    | ⟨0, _⟩ => show win0_11.index t (0 : Fin 2) * 1000 + 1 * r.val = t.val * 1000 + r.val; rw [hb0]; omega
    | ⟨1, _⟩ => show win0_11.index t (1 : Fin 2) * 128 + 1 * cc.val = cc.val; rw [hb1]; omega
  rw [hn, result_apply]
  simp only [blk0 m c t, blk1 m c t, blk2 m c t, whole3 m c t, whole4 m c t, whole5 m c t, whole6 m c t, whole7 m c t,
    whole8 m c t, whole9 m c t, whole10 m c t]

/-- An index of the result array is in point `t`'s block iff each coordinate is in the block's range on its axis. -/
theorem mem_blk (t : Fin cfg0.N) (i : S50000x128.Idx) :
    i ∈ ((cfg0.win 11).blk t).view.set
      ↔ ∀ a : Fin 2, win0_11.index t a * S1000x128.size a ≤ (i a).val ∧ (i a).val < win0_11.index t a * S1000x128.size a + S1000x128.size a := by
  show i ∈ ((View.whole main_v37).slice (win0_11.rect t)).set ↔ _
  rw [View.set_slice_whole, Rect.mem_set_unit]
  exact Iff.rfl

/-- Every row of the result array is in some point's block: row `n` in point `n / 1000`'s. -/
theorem cover (i : S50000x128.Idx) :
    ∃ t : Fin cfg0.N, (cfg0.win 11).flush t = true ∧ i ∈ ((cfg0.win 11).blk t).view.set := by
  have hN : cfg0.N = 50 := N_0
  have hi0 : (i 0).val < 50000 := (i 0).isLt
  have hi1 : (i 1).val < 128 := (i 1).isLt
  have ht : (i 0).val / 1000 < cfg0.N := by omega
  obtain ⟨-, -, -, -, -, -, -, -, -, -, -, -, -, -, -, -, hb0, hb1⟩ := idx_facts ⟨(i 0).val / 1000, ht⟩
  refine ⟨⟨(i 0).val / 1000, ht⟩, flush0_11 _, ?_⟩
  rw [mem_blk]
  intro a
  match a with
  | ⟨0, _⟩ =>
    show win0_11.index ⟨(i 0).val / 1000, ht⟩ (0 : Fin 2) * 1000 ≤ (i 0).val
      ∧ (i 0).val < win0_11.index ⟨(i 0).val / 1000, ht⟩ (0 : Fin 2) * 1000 + 1000
    rw [hb0]; show (i 0).val / 1000 * 1000 ≤ (i 0).val ∧ (i 0).val < (i 0).val / 1000 * 1000 + 1000; omega
  | ⟨1, _⟩ =>
    show win0_11.index ⟨(i 0).val / 1000, ht⟩ (1 : Fin 2) * 128 ≤ (i 1).val
      ∧ (i 1).val < win0_11.index ⟨(i 0).val / 1000, ht⟩ (1 : Fin 2) * 128 + 128
    rw [hb1]; omega

/-- The result array after the run is the layer's output. -/
theorem final (c : Dev nD) : (dats m 0 c).arrAt 11 cfg0.N = result m c :=
  (dats m 0 c).arrAt_eq_of_cover 11 (result m c) (fun t _ => flushed_eq m c t) cover

/-- The run, read: the result array at the layer's output of the arrays the region finds, the arguments unchanged. -/
theorem run : θ_run defs (onTc (τ := τ) (main (F := Ideal))) ⟨m, fun _ => 0, ρ⟩ fun r => ∀ c : Dev nD,
      r.2.mem ((c : Thread nD τ).loc main_v37) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KFinal

end
-- ==== Proof.AggWord.lean ====
import Idealize.ShloMosaic.PureOps.Ideal
import Idealize.ShloMosaic.Lib.WordArith

/-!
# One edge's contribution to a bucket, two ways

An edge carries a node number `node` in `0 … 49999`, a type label `ty` in `0 … 3` and a bit `ne` saying that it is
not a self-loop. One program files the edge under the single bucket number `ty · 50000 + node` (or under the
dustbin `200000` when it is a self-loop) and later reads bucket `t · 50000 + n`; the other files it under `node`,
weighted by the 0/1 mask "not a self-loop and of type `t`", and reads bucket `n`. Since `node < 50000` the bucket
number determines the pair (type, node), no 32-bit product or sum wraps, and the dustbin is no bucket of the
first kind: the edge's contribution to the bucket read is the same extended real either way.
-/

noncomputable section

namespace Cert.AggWord

open Idealize.ShloMosaic Idealize.ShloMosaic.WordArith

/-- The single bucket number of an edge: `ty · 50000 + node`, the dustbin `200000` for a self-loop. -/
def bucket (ne : BitVec 1) (node ty : BitVec 32) : BitVec 32 :=
  Scalar.select ne (IntOp.addi (IntOp.muli ty 50000#32) node) 200000#32

/-- The 0/1 mask of an edge for type word `tc`, as an extended real. -/
def mask (ne : BitVec 1) (ty tc : BitVec 32) : EReal :=
  (((IntOp.andi ne (IntOp.cmpi .eq ty tc)).toNat : ℝ) : EReal)

theorem bitvec1_cases (b : BitVec 1) : b = 0#1 ∨ b = 1#1 := by
  have h := b.isLt
  rcases Nat.lt_or_ge b.toNat 1 with h0 | h1
  · left; apply BitVec.eq_of_toNat_eq; simp; omega
  · right; apply BitVec.eq_of_toNat_eq; simp; omega

/-- The bucket number of an edge that is not a self-loop, read signed, is the integer `ty · 50000 + node`. -/
theorem toInt_bucket_one (node ty : BitVec 32) (hn0 : 0 ≤ node.toInt) (hn1 : node.toInt < 50000)
    (ht0 : 0 ≤ ty.toInt) (ht1 : ty.toInt < 4) :
    (bucket 1#1 node ty).toInt = ty.toInt * 50000 + node.toInt := by
  have h5 : (50000#32 : BitVec 32).toInt = 50000 := by decide
  have hm : (ty * 50000#32).toInt = ty.toInt * 50000 := by
    rw [toInt_mul_of_bounds _ _ (by rw [h5]; omega) (by rw [h5]; omega), h5]
  show (ty * 50000#32 + node).toInt = _
  rw [toInt_add_of_bounds _ _ (by rw [hm]; omega) (by rw [hm]; omega), hm]

/-- One edge's term in the two bucket sums. -/
theorem term_eq (ne : BitVec 1) (node ty tc : BitVec 32) (hn0 : 0 ≤ node.toInt) (hn1 : node.toInt < 50000)
    (ht0 : 0 ≤ ty.toInt) (ht1 : ty.toInt < 4) (t : Fin 4) (n : Fin 50000) (htc : tc.toInt = (t.val : ℤ))
    (r : ℕ) (hr : r = t.val * 50000 + n.val) (v : EReal) :
    (if (bucket ne node ty).toInt = (r : ℤ) then v else 0)
      = (if node.toInt = (n.val : ℤ) then v * mask ne ty tc else 0) := by
  have hnlt := n.isLt
  have htlt := t.isLt
  subst hr
  rcases bitvec1_cases ne with rfl | rfl
  · -- a self-loop: the dustbin on one side, the zero mask on the other
    have hb : (bucket 0#1 node ty).toInt = 200000 := by
      unfold bucket Scalar.select
      rw [if_neg (by decide)]
      decide
    have hm : mask 0#1 ty tc = 0 := by
      unfold mask
      have : IntOp.andi 0#1 (IntOp.cmpi .eq ty tc) = 0#1 := by
        show (0#1 &&& _) = 0#1
        simp
      rw [this]; simp
    rw [hb, hm, mul_zero, if_neg (by push_cast; omega)]
    simp
  · rw [toInt_bucket_one node ty hn0 hn1 ht0 ht1]
    by_cases hty : ty = tc
    · subst hty
      have hm : mask 1#1 ty ty = 1 := by
        unfold mask
        have : IntOp.andi 1#1 (IntOp.cmpi .eq ty ty) = 1#1 := by
          show (1#1 &&& BitVec.ofBool (ty == ty)) = 1#1
          simp
        rw [this]; simp
      rw [hm, mul_one]
      by_cases hnode : node.toInt = (n.val : ℤ)
      · rw [if_pos hnode, if_pos (by rw [htc, hnode]; push_cast; ring)]
      · rw [if_neg hnode, if_neg (by rw [htc]; push_cast; omega)]
    · have hm : mask 1#1 ty tc = 0 := by
        unfold mask
        have : IntOp.andi 1#1 (IntOp.cmpi .eq ty tc) = 0#1 := by
          show (1#1 &&& BitVec.ofBool (ty == tc)) = 0#1
          have : (ty == tc) = false := by simpa using hty
          rw [this]; decide
        rw [this]; simp
      have hne : ty.toInt ≠ (t.val : ℤ) := fun h => hty (BitVec.eq_of_toInt_eq (by rw [h, htc]))
      rw [hm, mul_zero, if_neg (by push_cast; omega)]
      simp

end Cert.AggWord

end
-- ==== Proof.LibSegmentRows.lean ====
import Idealize.ShloMosaic.PureOps.Ideal
import Idealize.ShloMosaic.PureOps.Ideal.Laws
import Idealize.ShloMosaic.Lib.ValueIdx

/-!
A float scatter-add of rows read at an entry.

`K` accumulator rows of `D` columns, `N` update rows, update row `n` added into the accumulator row its segment number
names: a scatter with an `add` body whose operand is `[K, D]`, whose scatter indices are the `[N, 1]` column of segment
numbers and whose updates are `[N, D]` — update window axis 1, the operand's axis 0 inserted and start-indexed, the index
vector on axis 1. Over the extended reals entry `(s, j)` of the result is the operand's entry plus the sum over the
update rows whose segment number, read signed, is `s` of their column `j`; a row whose number is negative or `K` and
above lands nowhere.
-/

noncomputable section

open scoped BigOperators

namespace Idealize.ShloMosaic.SegmentRows

open Idealize.ShloMosaic Idealize.ShloMosaic.ValueIdx

/-- The updates' one scatter axis — an axis that is not the window axis — is axis 0. -/
private theorem uScatter_mem {K D N : Nat} (d : ScatterDims ⟨2, ![K, D]⟩ ⟨2, ![N, 1]⟩ ⟨2, ![N, D]⟩)
    (huw : d.updateWindowDims = [1]) (X : Fin 2) (hX : X ∈ d.uScatter) : X = 0 := by
  have h := (List.mem_filter.1 hX).2
  rw [huw] at h
  match X with
  | ⟨0, _⟩ => rfl
  | ⟨1, _⟩ => simp at h

/-- The start of update `(n, j')`'s window on the operand's row axis: row `n` of the index column, read signed. -/
private theorem start_zero {K D N w : Nat} (d : ScatterDims ⟨2, ![K, D]⟩ ⟨2, ![N, 1]⟩ ⟨2, ![N, D]⟩)
    (huw : d.updateWindowDims = [1])
    (hsd : d.scatterDimsToOperandDims = [0]) (hiv : d.indexVectorDim = 1)
    (idx : IVec ⟨2, ![N, 1]⟩ w) (n : Fin N) (j' : Fin D) :
    d.start (ix2 n j') idx 0 = (idx (ix2 n (0 : Fin 1))).toInt := by
  have hm : (0 : Fin 2) ∈ d.scatterDimsToOperandDims := by rw [hsd]; exact List.mem_singleton.mpr rfl
  unfold ScatterDims.start
  rw [dif_pos hm]
  congr 2
  funext b
  match b with
  | ⟨0, _⟩ =>
    -- axis 0 of the index column is its one scatter axis: it reads the update's row coordinate
    unfold ScatterDims.siIdx
    rw [dif_neg (by rw [hiv]; simp)]
    unfold ScatterDims.siCoord
    apply Fin.ext
    simp only [Fin.val_cast]
    have e : ∀ X : Fin 2, X ∈ d.uScatter → ((ix2 n j' : (⟨2, ![N, D]⟩ : Shape).Idx) X).val = n.val := fun X hX => by
      obtain rfl := uScatter_mem d huw X hX
      rfl
    exact e _ (List.getElem_mem _)
  | ⟨1, _⟩ =>
    -- axis 1 is the index vector's: the component number, the position of operand axis 0 in the one-entry map
    unfold ScatterDims.siIdx
    rw [dif_pos (by rw [hiv])]
    apply Fin.ext
    show List.idxOf (0 : Fin 2) d.scatterDimsToOperandDims = 0
    rw [hsd]; simp

/-- The map names no start for the operand's column axis: the window starts at column `0`. -/
private theorem start_one {K D N w : Nat} (d : ScatterDims ⟨2, ![K, D]⟩ ⟨2, ![N, 1]⟩ ⟨2, ![N, D]⟩)
    (hsd : d.scatterDimsToOperandDims = [0])
    (idx : IVec ⟨2, ![N, 1]⟩ w) (i : (⟨2, ![N, D]⟩ : Shape).Idx) :
    d.start i idx 1 = 0 := by
  unfold ScatterDims.start
  rw [dif_neg]
  rw [hsd]; simp

/-- The operand's row axis is inserted, so the window coordinate on it is `0`. -/
private theorem window_zero {K D N : Nat} (d : ScatterDims ⟨2, ![K, D]⟩ ⟨2, ![N, 1]⟩ ⟨2, ![N, D]⟩)
    (hiw : d.insertedWindowDims = [0]) (i : (⟨2, ![N, D]⟩ : Shape).Idx) :
    d.window i 0 = 0 := by
  unfold ScatterDims.window
  rw [dif_neg]
  simp [ScatterDims.sKept, Shape.kept, hiw]

/-- The operand's column axis is its one kept axis: the window coordinate on it is the update's column. -/
private theorem window_one {K D N : Nat} (d : ScatterDims ⟨2, ![K, D]⟩ ⟨2, ![N, 1]⟩ ⟨2, ![N, D]⟩)
    (huw : d.updateWindowDims = [1]) (hiw : d.insertedWindowDims = [0]) (i : (⟨2, ![N, D]⟩ : Shape).Idx) :
    d.window i 1 = (i 1).val := by
  have hm : (1 : Fin 2) ∈ d.sKept := by
    simp [ScatterDims.sKept, Shape.kept, hiw]
  unfold ScatterDims.window
  rw [dif_pos hm]
  have e : ∀ X : Fin 2, X ∈ d.updateWindowDims → X = 1 := fun X hX => by
    rw [huw] at hX; exact List.mem_singleton.1 hX
  exact congrArg (fun X => (i X).val) (e _ (List.getElem_mem _))

/-- Where update `(n, j')` lands: in its own column, at the row its segment number names when that is one of
    `0 … K - 1`. -/
theorem resultIdx?_eq_some_iff {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (j' : Fin D) (s : Fin K) (j : Fin D) :
    d.resultIdx? (ix2 n j') idx = some (ix2 s j)
      ↔ (idx (ix2 n (0 : Fin 1))).toInt = (s.val : Int) ∧ j' = j := by
  have hst0 := start_zero d huw hsd hiv idx n j'
  have hst1 := start_one d hsd idx (ix2 n j')
  have hw0 := window_zero d hiw (ix2 n j')
  have hw1 : d.window (ix2 n j') 1 = j'.val := window_one d huw hiw (ix2 n j')
  have hK : (⟨2, ![K, D]⟩ : Shape).size (0 : Fin 2) = K := rfl
  have hD : (⟨2, ![K, D]⟩ : Shape).size (1 : Fin 2) = D := rfl
  have hs := s.isLt
  have hj := j.isLt
  have hj' := j'.isLt
  unfold ScatterDims.resultIdx?
  split
  · next h =>
    rw [Option.some.injEq]
    constructor
    · intro e
      have e0 := congrArg (fun f => (f (0 : Fin 2)).val) e
      have e1 := congrArg (fun f => (f (1 : Fin 2)).val) e
      simp only [hst0, hst1, hw0, hw1] at e0 e1
      change ((idx (ix2 n (0 : Fin 1))).toInt + ((0 : Nat) : Int)).toNat = s.val at e0
      change ((0 : Int) + ((j'.val : Nat) : Int)).toNat = j.val at e1
      have h0 := h 0
      rw [hst0, hw0] at h0
      exact ⟨by omega, Fin.ext (by omega)⟩
    · rintro ⟨e, rfl⟩
      funext a
      match a with
      | ⟨0, _⟩ =>
        apply Fin.ext
        show (d.start (ix2 n j') idx 0 + ((d.window (ix2 n j') 0 : Nat) : Int)).toNat = s.val
        rw [hst0, hw0]; omega
      | ⟨1, _⟩ =>
        apply Fin.ext
        show (d.start (ix2 n j') idx 1 + ((d.window (ix2 n j') 1 : Nat) : Int)).toNat = j'.val
        rw [hst1, hw1]; omega
  · next h =>
    constructor
    · intro e; exact absurd e (by simp)
    · rintro ⟨e, rfl⟩
      exfalso
      apply h
      rw [Fin.forall_fin_two]
      refine ⟨?_, ?_⟩
      · rw [hst0, hw0, hK, e]; omega
      · rw [hst1, hw1, hD]; omega

/-- THE SEGMENT SUM OF ROWS AT AN ENTRY: the operand's entry plus column `j` of the update rows of that segment. -/
theorem scatterAdd_rows_apply {K D N w : Nat} (d : ScatterDims ⟨2, ![K, D]⟩ ⟨2, ![N, 1]⟩ ⟨2, ![N, D]⟩)
    (huw : d.updateWindowDims = [1]) (hiw : d.insertedWindowDims = [0])
    (hsd : d.scatterDimsToOperandDims = [0]) (hiv : d.indexVectorDim = 1)
    (x : FVec Ideal ⟨2, ![K, D]⟩ .f32) (idx : IVec ⟨2, ![N, 1]⟩ w) (upd : FVec Ideal ⟨2, ![N, D]⟩ .f32)
    (s : Fin K) (j : Fin D) :
    Host.scatterAdd (F := Ideal) d x idx upd (ix2 s j)
      = x (ix2 s j) + ∑ n : Fin N, if (idx (ix2 n (0 : Fin 1))).toInt = (s.val : Int) then upd (ix2 n j) else 0 := by
  show Ideal.hostScatterAdd d x idx upd (ix2 s j) = _
  unfold Ideal.hostScatterAdd
  congr 1
  -- the sum over the update indices that land on `(s, j)`, as a double sum over rows and columns
  rw [Finset.sum_filter, sum_idx2]
  refine Finset.sum_congr rfl fun n _ => ?_
  simp only [resultIdx?_eq_some_iff d huw hiw hsd hiv idx n _ s j]
  -- in row `n` only column `j` lands in column `j`
  by_cases hA : (idx (ix2 n (0 : Fin 1))).toInt = (s.val : Int)
  · simp only [hA, true_and]
    rw [Finset.sum_ite_eq']
    simp
  · simp [hA]

end Idealize.ShloMosaic.SegmentRows

end
-- ==== Proof.AggSum.lean ====
import proofs.«426551_j20383914787325_1_alg».proof.Proof.AggWord
import proofs.«426551_j20383914787325_1_alg».proof.Proof.LibSegmentRows
import proofs.«426551_j20383914787325_1_alg».proof.Proof.LibConv
import Idealize.ShloMosaic.Lib.Pipeline.Value
import Idealize.ShloMosaic.Lib.ValueLayout

/-!
# The aggregated neighbour features, two ways, as sums over the edges

One program adds every edge's feature row into a single array of `4 · 50000 + 1` buckets at the edge's bucket number,
drops the last bucket and reads the rest as `[4, 50000, 128]`; the other, for each type, adds the masked rows into
`50000` buckets at the edge's node number. Read at (type `t`, node `n`, lane `k`) both are a sum over all edges of
the edge's row entry or zero, and the two sums agree edge by edge.
-/

noncomputable section

open scoped BigOperators

namespace Cert.AggSum

open Idealize.ShloMosaic Idealize.ShloMosaic.ValueIdx Idealize.ShloMosaic.SegmentRows

/-- The single-array segment sum from zeros, cut to its first `200000` rows and read as `[4, 50000, 128]`, at
    `(t, n, k)`: the sum of lane `k` over the edges whose bucket number is `t · 50000 + n`. -/
theorem flat_apply (d : ScatterDims ⟨2, ![200001, 128]⟩ ⟨2, ![500000, 1]⟩ ⟨2, ![500000, 128]⟩)
    (huw : d.updateWindowDims = [1]) (hiw : d.insertedWindowDims = [0])
    (hsd : d.scatterDimsToOperandDims = [0]) (hiv : d.indexVectorDim = 1)
    (z : FVec Ideal ⟨2, ![200001, 128]⟩ .f32) (hz : ∀ i, z i = 0)
    (idx : IVec ⟨2, ![500000, 1]⟩ 32) (xs : FVec Ideal ⟨2, ![500000, 128]⟩ .f32)
    (h1 : (⟨2, ![200001, 128]⟩ : Shape).Slices ![0, 0] ⟨2, ![200000, 128]⟩)
    (h2 : (⟨2, ![200000, 128]⟩ : Shape).ShapeCasts ⟨3, ![4, 50000, 128]⟩)
    (t : Fin 4) (n : Fin 50000) (k : Fin 128) :
    shapeCast ⟨3, ![4, 50000, 128]⟩
        (extractStridedSlice ⟨2, ![200000, 128]⟩ ![0, 0] (Host.scatterAdd (F := Ideal) d z idx xs) h1) h2 (ix3 t n k)
      = ∑ e : Fin 500000, if (idx (ix2 e (0 : Fin 1))).toInt = ((t.val * 50000 + n.val : ℕ) : ℤ) then xs (ix2 e k) else 0 := by
  have hr : t.val * 50000 + n.val < 200000 := by have := t.isLt; have := n.isLt; omega
  rw [Cert.LibConv.unflatten3_apply _ h2 t n k ⟨t.val * 50000 + n.val, hr⟩ rfl,
    slice2_axis0_apply 0 _ h1 ⟨t.val * 50000 + n.val, hr⟩ k ⟨t.val * 50000 + n.val, by omega⟩ (by simp),
    scatterAdd_rows_apply d huw hiw hsd hiv, hz, zero_add]

/-- The per-type segment sum from zeros of the masked rows, at `(n, k)`: the sum of lane `k` times the mask over the
    edges whose node number is `n`. -/
theorem masked_apply (d : ScatterDims ⟨2, ![50000, 128]⟩ ⟨2, ![500000, 1]⟩ ⟨2, ![500000, 128]⟩)
    (huw : d.updateWindowDims = [1]) (hiw : d.insertedWindowDims = [0])
    (hsd : d.scatterDimsToOperandDims = [0]) (hiv : d.indexVectorDim = 1)
    (z : FVec Ideal ⟨2, ![50000, 128]⟩ .f32) (hz : ∀ i, z i = 0)
    (idx : IVec ⟨2, ![500000, 1]⟩ 32) (xs mk : FVec Ideal ⟨2, ![500000, 128]⟩ .f32)
    (n : Fin 50000) (k : Fin 128) :
    Host.scatterAdd (F := Ideal) d z idx (mulf xs mk) (ix2 n k)
      = ∑ e : Fin 500000, if (idx (ix2 e (0 : Fin 1))).toInt = (n.val : ℤ) then xs (ix2 e k) * mk (ix2 e k) else 0 := by
  rw [scatterAdd_rows_apply d huw hiw hsd hiv, hz, zero_add]
  rfl

/-- The two sums agree edge by edge when, at every edge, the first program's index is the edge's bucket number, the
    second's its node number, the mask the edge's 0/1 mask for type `t`, and the node number and type label are in range. -/
theorem sums_eq (idxK idxR : IVec ⟨2, ![500000, 1]⟩ 32) (xs mk : FVec Ideal ⟨2, ![500000, 128]⟩ .f32)
    (ne : Fin 500000 → BitVec 1) (node ty : Fin 500000 → BitVec 32) (tc : BitVec 32)
    (t : Fin 4) (n : Fin 50000) (k : Fin 128)
    (hK : ∀ e, idxK (ix2 e (0 : Fin 1)) = Cert.AggWord.bucket (ne e) (node e) (ty e))
    (hR : ∀ e, idxR (ix2 e (0 : Fin 1)) = node e)
    (hM : ∀ e, mk (ix2 e k) = Cert.AggWord.mask (ne e) (ty e) tc)
    (hnode : ∀ e, 0 ≤ (node e).toInt ∧ (node e).toInt < 50000)
    (hty : ∀ e, 0 ≤ (ty e).toInt ∧ (ty e).toInt < 4) (htc : tc.toInt = (t.val : ℤ)) :
    (∑ e : Fin 500000, if (idxK (ix2 e (0 : Fin 1))).toInt = ((t.val * 50000 + n.val : ℕ) : ℤ) then xs (ix2 e k) else 0)
      = ∑ e : Fin 500000, if (idxR (ix2 e (0 : Fin 1))).toInt = (n.val : ℤ) then xs (ix2 e k) * mk (ix2 e k) else 0 :=
  Finset.sum_congr rfl fun e _ => by
    rw [hK e, hR e, hM e]
    exact Cert.AggWord.term_eq (ne e) (node e) (ty e) tc (hnode e).1 (hnode e).2 (hty e).1 (hty e).2 t n htc _ rfl _

end Cert.AggSum

end
-- ==== Proof.KHost.lean ====
import proofs.«426551_j20383914787325_1_alg».proof.Proof.Gen.KernelIdeal.Frame
import proofs.«426551_j20383914787325_1_alg».proof.Proof.AggSum
import Idealize.ShloMosaic.Lib.StableHlo.Run
import Idealize.ShloMosaic.Lib.Pipeline.Value
import Idealize.ShloMosaic.Lib.ValueLayout
import Idealize.ShloMosaic.PureOps.Ideal

/-!
# What the kernel's host operations hand to its region

Before its one region the program splits the edge list into sources and targets, gathers the feature rows of both,
files every edge under one bucket number per direction (type · 50000 + node, the dustbin for a self-loop), adds the
gathered rows into `200001` buckets, drops the dustbin and reads the rest as `[4, 50000, 128]`. Here those two arrays
are named as terms of the argument arrays, and read at (type, node, lane) as sums over the edges.
-/

set_option maxRecDepth 16384
set_option maxHeartbeats 2000000

noncomputable section

namespace Cert.KHost

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-- The feature array, the edge list and the type list as launched. -/
abbrev a0 : FVec Ideal S50000x128 .f32 := m (c, Proc.tc.devRef main_arg0)
abbrev a1 : IVec S2x500000 32 := m (c, Proc.tc.devRef main_arg1)
abbrev a2 : IVec S500000 32 := m (c, Proc.tc.devRef main_arg2)

/-- The edges' sources: row 0 of the edge list. -/
def src : IVec S500000 32 :=
  shapeCast S500000 (extractStridedSlice S1x500000 ![0, 0] (a1 m c) slices_S2x500000_S1x500000_0_0) shapeCasts_S1x500000_S500000
/-- The edges' targets: row 1 of the edge list. -/
def dst : IVec S500000 32 :=
  shapeCast S500000 (extractStridedSlice S1x500000 ![1, 0] (a1 m c) slices_S2x500000_S1x500000_1_0) shapeCasts_S1x500000_S500000
/-- "Not a self-loop", per edge. -/
def nes : IVec S500000 1 := cmpi .ne (src m c) (dst m c)

/-- The feature rows gathered at a list of node numbers (a negative number counted from the end, as jnp indexes). -/
def rowsAt (v : IVec S500000 32) : FVec Ideal S500000x128 .f32 :=
  Host.gather gather_S50000x128_S500000x1_S500000x128_1_0_n_n_0_1_1128 (a0 m c)
    (broadcastInDim S500000x1 ![0] bcast_S500000_S500000x1_0
      (select (cmpi .slt v (broadcastInDim S500000 ![] bcast_S_S500000 (constantI S_ 32 0#32)))
        (addi v (broadcastInDim S500000 ![] bcast_S_S500000 (constantI S_ 32 50000#32))) v))

/-- The bucket numbers of the edges filed by the node list `node`, as an index column. -/
def bucketCol (node : IVec S500000 32) : IVec S500000x1 32 :=
  broadcastInDim S500000x1 ![0] bcast_S500000_S500000x1_0
    (select (nes m c)
      (addi (muli (a2 m c) (broadcastInDim S500000 ![] bcast_S_S500000 (constantI S_ 32 50000#32))) node)
      (broadcastInDim S500000 ![] bcast_S_S500000 (constantI S_ 32 200000#32)))

/-- The `200001` empty buckets. -/
def zeros : FVec Ideal S200001x128 .f32 := broadcastInDim S200001x128 ![] bcast_S_S200001x128 (constant S_ .f32 0x00000000#32)

/-- The aggregated array a region window is handed, from the rows added and the node list they are filed by. -/
def aggOf (rows : FVec Ideal S500000x128 .f32) (node : IVec S500000 32) : S4x50000x128.Idx → EReal :=
  shapeCast S4x50000x128
    (extractStridedSlice S200000x128 ![0, 0]
      (Host.scatterAdd scatter_S200001x128_S500000x1_S500000x128_1_0_0_1 (zeros) (bucketCol m c node) rows)
      slices_S200001x128_S200000x128_0_0) shapeCasts_S200000x128_S4x50000x128

/-- The forward aggregated array: the sources' rows filed by target. -/
theorem V_aggA : (V m c main_v34 : S4x50000x128.Idx → EReal) = aggOf m c (rowsAt m c (src m c)) (dst m c) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- The backward aggregated array: the targets' rows filed by source. -/
theorem V_aggB : (V m c main_v36 : S4x50000x128.Idx → EReal) = aggOf m c (rowsAt m c (dst m c)) (src m c) := by
  dsimp only [Gen.V]
  simp only [Gen.hostOps0, Gen.hostOps0_1, Gen.hostOps0_2, Gen.hostOps0_3, Gen.hostOps0_4, List.flatten_cons, List.flatten_nil,
    List.append_nil, List.cons_append, List.nil_append]
  after_results_simp
  rfl

/-- A source or target at an edge is the edge list's entry. -/
theorem src_apply (e : Fin 500000) : src m c (ix1 e) = a1 m c (ix2 (0 : Fin 2) e) := by
  unfold src
  rw [shapeCast_1a_a_apply]
  exact slice2_axis0_apply 0 _ _ (0 : Fin 1) e (0 : Fin 2) rfl
theorem dst_apply (e : Fin 500000) : dst m c (ix1 e) = a1 m c (ix2 (1 : Fin 2) e) := by
  unfold dst
  rw [shapeCast_1a_a_apply]
  exact slice2_axis0_apply 1 _ _ (0 : Fin 1) e (1 : Fin 2) rfl

/-- The bucket number of an edge, from the words of the edge. -/
theorem bucketCol_apply (node : IVec S500000 32) (e : Fin 500000) :
    bucketCol m c node (ix2 e (0 : Fin 1))
      = Cert.AggWord.bucket (IntOp.cmpi .ne (src m c (ix1 e)) (dst m c (ix1 e))) (node (ix1 e)) (a2 m c (ix1 e)) := by
  unfold bucketCol
  rw [broadcastInDim_apply _ _ _ (ix2 e (0 : Fin 1)) (ix1 e) (fun a => by
    match a with
    | ⟨0, _⟩ => rfl)]
  rfl

/-- The aggregated array at (type, node, lane): the sum of lane `k` of the rows over the edges whose bucket number is
    `t · 50000 + n`. -/
theorem aggOf_apply (rows : FVec Ideal S500000x128 .f32) (node : IVec S500000 32) (t : Fin 4) (n : Fin 50000) (k : Fin 128) :
    aggOf m c rows node (ix3 t n k)
      = ∑ e : Fin 500000, if (bucketCol m c node (ix2 e (0 : Fin 1))).toInt = ((t.val * 50000 + n.val : ℕ) : ℤ)
          then rows (ix2 e k) else 0 :=
  Cert.AggSum.flat_apply scatter_S200001x128_S500000x1_S500000x128_1_0_0_1 rfl rfl rfl rfl (zeros)
    (fun _ => by show Ideal.ofBits .f32 0x00000000#32 = 0; exact Ideal.ofBits_zero_f32) _ _ _ _ t n k

end Cert.KHost

end
-- ==== Proof.RValue.lean ====
import proofs.«426551_j20383914787325_1_alg».proof.Proof.Gen.ReferenceIdeal.Run
import proofs.«426551_j20383914787325_1_alg».proof.Proof.Spec
import proofs.«426551_j20383914787325_1_alg».proof.Proof.LibConv
import Idealize.ShloMosaic.Lib.Pipeline.Value
import Idealize.ShloMosaic.Lib.ValueIdx
import Idealize.ShloMosaic.Lib.ValueLayout
import Idealize.ShloMosaic.Lib.StackMember
import Idealize.ShloMosaic.Lib.KernelVsHost
import Idealize.ShloMosaic.PureOps.Ideal.Laws

/-!
# The reference's result, entry by entry

The reference forms, for each edge type, the two masked segment sums, the eight pieces `agg · Wl + x · Wr + b` over all
50000 nodes, their concatenation along the lanes and the final linear map. Read at node `n` and lane `c` this is the
layer's output for the node's rows of the features and of the eight segment sums.
-/

set_option maxRecDepth 16384

noncomputable section

namespace Cert.RValue

open Cert.ReferenceIdeal Cert.ReferenceIdeal.Gen Cert.ReferenceIdeal.Value Idealize.ShloMosaic Idealize.ShloMosaic.ValueIdx
open Idealize.ShloMosaic.StableHlo

/-! ## Layout operations of one piece, read at coordinates -/

section Layout
variable {α : Type}

/-- The matrix of type `t` cut out of a stack of four and read as a plain matrix: at `(a, b)` it is the stack at
    `(t, a, b)`. The cut starts at `o = t` on the first axis and at zero on the other two. -/
theorem weight_apply (W : (⟨3, ![4, 128, 128]⟩ : Shape).Idx → α) (o : Nat) (t : Fin 4) (ht : t.val = o)
    (hs : (⟨3, ![4, 128, 128]⟩ : Shape).Slices ![o, 0, 0] ⟨3, ![1, 128, 128]⟩)
    (hc : (⟨3, ![1, 128, 128]⟩ : Shape).ShapeCasts ⟨2, ![128, 128]⟩) (a b : Fin 128) :
    shapeCast ⟨2, ![128, 128]⟩ (extractStridedSlice ⟨3, ![1, 128, 128]⟩ ![o, 0, 0] W hs) hc (ix2 a b) = W (ix3 t a b) := by
  refine (shapeCast_1ab_ab_apply _ hc a b).trans ?_
  refine extractStridedSlice_apply _ W hs _ (ix3 t a b) fun ax => ?_
  match ax with
  | ⟨0, _⟩ => exact ht.trans (Nat.add_zero o).symm
  | ⟨1, _⟩ => exact (Nat.zero_add _).symm
  | ⟨2, _⟩ => exact (Nat.zero_add _).symm

/-- A vector of 128 lanes laid along every row of a matrix reads, at `(n, j)`, the vector at `j`. -/
theorem rowvec_apply {m : Nat} (v : (⟨1, ![128]⟩ : Shape).Idx → α)
    (h1 : (⟨1, ![128]⟩ : Shape).BroadcastsInDim ⟨2, ![1, 128]⟩ ![1])
    (h2 : (⟨2, ![1, 128]⟩ : Shape).BroadcastsInDim ⟨2, ![m, 128]⟩ ![0, 1]) (n : Fin m) (j : Fin 128) :
    broadcastInDim ⟨2, ![m, 128]⟩ ![0, 1] h2 (broadcastInDim ⟨2, ![1, 128]⟩ ![1] h1 v) (ix2 n j) = v (ix1 j) := by
  refine (broadcastInDim_oneRow_apply h2 _ n j).trans ?_
  refine broadcastInDim_apply ![1] h1 v (ix2 (0 : Fin 1) j) (ix1 j) fun a => ?_
  match a with
  | ⟨0, _⟩ =>
    show j.val = if (128 : ℕ) = 1 then 0 else j.val
    rw [if_neg (by decide)]

/-- The bias row of type `t` cut out of the four and laid along every row: at `(n, j)` it is the bias at `(t, j)`. -/
theorem bias_apply (B : (⟨2, ![4, 128]⟩ : Shape).Idx → α) (o : Nat) (t : Fin 4) (ht : t.val = o)
    (hs : (⟨2, ![4, 128]⟩ : Shape).Slices ![o, 0] ⟨2, ![1, 128]⟩)
    (hc : (⟨2, ![1, 128]⟩ : Shape).ShapeCasts ⟨1, ![128]⟩)
    (h1 : (⟨1, ![128]⟩ : Shape).BroadcastsInDim ⟨2, ![1, 128]⟩ ![1])
    (h2 : (⟨2, ![1, 128]⟩ : Shape).BroadcastsInDim ⟨2, ![50000, 128]⟩ ![0, 1]) (n : Fin 50000) (j : Fin 128) :
    broadcastInDim ⟨2, ![50000, 128]⟩ ![0, 1] h2 (broadcastInDim ⟨2, ![1, 128]⟩ ![1] h1
      (shapeCast ⟨1, ![128]⟩ (extractStridedSlice ⟨2, ![1, 128]⟩ ![o, 0] B hs) hc)) (ix2 n j) = B (ix2 t j) := by
  refine (rowvec_apply _ h1 h2 n j).trans ?_
  refine (shapeCast_1a_a_apply _ hc j).trans ?_
  exact slice2_axis0_apply o B hs (0 : Fin 1) j t (by rw [ht]; rfl)

end Layout

/-! ## One piece -/

/-- One piece `agg · Wl[t] + x · Wr[t] + b[t]` read at node `n` and lane `j`: the two products are sums over the 128
    contracted lanes of row `n` of `agg` and of `x`, added first, and the bias of type `t` at lane `j` is added last. -/
theorem piece_apply (agg x : FVec Ideal ⟨2, ![50000, 128]⟩ .f32) (Wl Wr : FVec Ideal ⟨3, ![4, 128, 128]⟩ .f32)
    (b : FVec Ideal ⟨2, ![4, 128]⟩ .f32) (o : Nat) (t : Fin 4) (ht : t.val = o)
    (D : DotDims ⟨2, ![50000, 128]⟩ ⟨2, ![128, 128]⟩ ⟨2, ![50000, 128]⟩) (hD : D = DotDims.plain 50000 128 128)
    (hs3 : (⟨3, ![4, 128, 128]⟩ : Shape).Slices ![o, 0, 0] ⟨3, ![1, 128, 128]⟩)
    (hc3 : (⟨3, ![1, 128, 128]⟩ : Shape).ShapeCasts ⟨2, ![128, 128]⟩)
    (hs2 : (⟨2, ![4, 128]⟩ : Shape).Slices ![o, 0] ⟨2, ![1, 128]⟩)
    (hc2 : (⟨2, ![1, 128]⟩ : Shape).ShapeCasts ⟨1, ![128]⟩)
    (h1 : (⟨1, ![128]⟩ : Shape).BroadcastsInDim ⟨2, ![1, 128]⟩ ![1])
    (h2 : (⟨2, ![1, 128]⟩ : Shape).BroadcastsInDim ⟨2, ![50000, 128]⟩ ![0, 1]) (n : Fin 50000) (j : Fin 128) :
    (addf (addf (Host.dotGeneral D none agg (shapeCast ⟨2, ![128, 128]⟩ (extractStridedSlice ⟨3, ![1, 128, 128]⟩ ![o, 0, 0] Wl hs3) hc3))
                (Host.dotGeneral D none x (shapeCast ⟨2, ![128, 128]⟩ (extractStridedSlice ⟨3, ![1, 128, 128]⟩ ![o, 0, 0] Wr hs3) hc3)))
          (broadcastInDim ⟨2, ![50000, 128]⟩ ![0, 1] h2 (broadcastInDim ⟨2, ![1, 128]⟩ ![1] h1
            (shapeCast ⟨1, ![128]⟩ (extractStridedSlice ⟨2, ![1, 128]⟩ ![o, 0] b hs2) hc2))) : FVec Ideal ⟨2, ![50000, 128]⟩ .f32) (ix2 n j)
      = Cert.Spec.sage (fun k => agg (ix2 n k)) (fun k => x (ix2 n k)) (fun a c => Wl (ix3 t a c)) (fun a c => Wr (ix3 t a c))
          (fun c => b (ix2 t c)) j := by
  subst hD
  unfold Cert.Spec.sage
  refine (addf_apply _ _ _).trans ?_
  refine congrArg₂ (· + ·) ((addf_apply _ _ _).trans (congrArg₂ (· + ·) ?_ ?_)) (bias_apply b o t ht hs2 hc2 h1 h2 n j)
  · refine (StackMember.dotGeneral_plain_apply none agg _ n j).trans ?_
    exact Finset.sum_congr rfl fun k _ => congrArg (agg (ix2 n k) * ·) (weight_apply Wl o t ht hs3 hc3 k j)
  · refine (StackMember.dotGeneral_plain_apply none x _ n j).trans ?_
    exact Finset.sum_congr rfl fun k _ => congrArg (x (ix2 n k) * ·) (weight_apply Wr o t ht hs3 hc3 k j)

/-! ## Eight pieces side by side -/

section Concat
variable {α : Type}

/-- Eight matrices of 128 lanes laid side by side: lane `k` of row `n` is lane `k % 128` of row `n` of piece `k / 128`. -/
theorem concat8_apply (u : Fin 8 → ((⟨2, ![50000, 128]⟩ : Shape).Idx → α))
    (h : Shape.Concatenates [(⟨2, ![50000, 128]⟩ : Shape), ⟨2, ![50000, 128]⟩, ⟨2, ![50000, 128]⟩, ⟨2, ![50000, 128]⟩,
      ⟨2, ![50000, 128]⟩, ⟨2, ![50000, 128]⟩, ⟨2, ![50000, 128]⟩, ⟨2, ![50000, 128]⟩] ⟨2, ![50000, 1024]⟩ 1)
    (n : Fin 50000) (k : Fin 1024) :
    concatenate ⟨2, ![50000, 1024]⟩ 1 [⟨⟨2, ![50000, 128]⟩, u 0⟩, ⟨⟨2, ![50000, 128]⟩, u 1⟩, ⟨⟨2, ![50000, 128]⟩, u 2⟩,
      ⟨⟨2, ![50000, 128]⟩, u 3⟩, ⟨⟨2, ![50000, 128]⟩, u 4⟩, ⟨⟨2, ![50000, 128]⟩, u 5⟩, ⟨⟨2, ![50000, 128]⟩, u 6⟩,
      ⟨⟨2, ![50000, 128]⟩, u 7⟩] h (ix2 n k)
      = u ⟨k.val / 128, by have := k.isLt; omega⟩ (ix2 n ⟨k.val % 128, Nat.mod_lt _ (by decide)⟩) := by
  refine concatenate_ofFn_apply (t := ⟨2, ![50000, 1024]⟩) (s₁ := ⟨2, ![50000, 128]⟩) 1 u h rfl 128 rfl (ix2 n k)
    ⟨k.val / 128, by have := k.isLt; omega⟩ rfl (ix2 n ⟨k.val % 128, Nat.mod_lt _ (by decide)⟩) rfl fun b hb => ?_
  match b with
  | ⟨0, _⟩ => rfl
  | ⟨1, _⟩ => exact absurd rfl hb

/-- Piece by piece: if row `n` of piece `p` is the row `r p`, row `n` of piece `p` at lane `j` is `r p j`. -/
theorem vec8_rows (u0 u1 u2 u3 u4 u5 u6 u7 : (⟨2, ![50000, 128]⟩ : Shape).Idx → α) (n : Fin 50000)
    (r0 r1 r2 r3 r4 r5 r6 r7 : Fin 128 → α)
    (h0 : ∀ j, u0 (ix2 n j) = r0 j) (h1 : ∀ j, u1 (ix2 n j) = r1 j) (h2 : ∀ j, u2 (ix2 n j) = r2 j)
    (h3 : ∀ j, u3 (ix2 n j) = r3 j) (h4 : ∀ j, u4 (ix2 n j) = r4 j) (h5 : ∀ j, u5 (ix2 n j) = r5 j)
    (h6 : ∀ j, u6 (ix2 n j) = r6 j) (h7 : ∀ j, u7 (ix2 n j) = r7 j) (p : Fin 8) (j : Fin 128) :
    (![u0, u1, u2, u3, u4, u5, u6, u7] : Fin 8 → _) p (ix2 n j) = (![r0, r1, r2, r3, r4, r5, r6, r7] : Fin 8 → _) p j := by
  fin_cases p
  exacts [h0 j, h1 j, h2 j, h3 j, h4 j, h5 j, h6 j, h7 j]

/-- Row `n` of the eight pieces side by side, from row `n` of each piece: lane `k` is lane `k % 128` of the row of piece
    `k / 128`. -/
theorem concat8_row (u0 u1 u2 u3 u4 u5 u6 u7 : (⟨2, ![50000, 128]⟩ : Shape).Idx → α)
    (h : Shape.Concatenates [(⟨2, ![50000, 128]⟩ : Shape), ⟨2, ![50000, 128]⟩, ⟨2, ![50000, 128]⟩, ⟨2, ![50000, 128]⟩,
      ⟨2, ![50000, 128]⟩, ⟨2, ![50000, 128]⟩, ⟨2, ![50000, 128]⟩, ⟨2, ![50000, 128]⟩] ⟨2, ![50000, 1024]⟩ 1)
    (n : Fin 50000) (r0 r1 r2 r3 r4 r5 r6 r7 : Fin 128 → α)
    (h0 : ∀ j, u0 (ix2 n j) = r0 j) (h1 : ∀ j, u1 (ix2 n j) = r1 j) (h2 : ∀ j, u2 (ix2 n j) = r2 j)
    (h3 : ∀ j, u3 (ix2 n j) = r3 j) (h4 : ∀ j, u4 (ix2 n j) = r4 j) (h5 : ∀ j, u5 (ix2 n j) = r5 j)
    (h6 : ∀ j, u6 (ix2 n j) = r6 j) (h7 : ∀ j, u7 (ix2 n j) = r7 j) (k : Fin 1024) :
    concatenate ⟨2, ![50000, 1024]⟩ 1 [⟨⟨2, ![50000, 128]⟩, u0⟩, ⟨⟨2, ![50000, 128]⟩, u1⟩, ⟨⟨2, ![50000, 128]⟩, u2⟩,
      ⟨⟨2, ![50000, 128]⟩, u3⟩, ⟨⟨2, ![50000, 128]⟩, u4⟩, ⟨⟨2, ![50000, 128]⟩, u5⟩, ⟨⟨2, ![50000, 128]⟩, u6⟩,
      ⟨⟨2, ![50000, 128]⟩, u7⟩] h (ix2 n k)
      = (![r0, r1, r2, r3, r4, r5, r6, r7] : Fin 8 → Fin 128 → α) ⟨k.val / 128, by have := k.isLt; omega⟩
          ⟨k.val % 128, Nat.mod_lt _ (by decide)⟩ :=
  (concat8_apply ![u0, u1, u2, u3, u4, u5, u6, u7] h n k).trans
    (vec8_rows u0 u1 u2 u3 u4 u5 u6 u7 n r0 r1 r2 r3 r4 r5 r6 r7 h0 h1 h2 h3 h4 h5 h6 h7 _ _)

end Concat

variable (V0 : Valuation τ sig (Elt Ideal))

/-- The 0/1 mask column of edge type `t`: "not a self-loop and of type `t`", as floats. -/
def maskCol (t : Fin 4) : FVec Ideal S500000x1 .f32 :=
  ![res_main_v23 V0, res_main_v62 V0, res_main_v101 V0, res_main_v140 V0] t

/-- The forward segment sum of type `t`: the masked source rows added up at their target node. -/
def aggA (t : Fin 4) : FVec Ideal S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 (res_main_v3 V0))
    (mulf (res_main_v11 V0) (broadcastInDim S500000x128 ![0, 1] bcast_S500000x1_S500000x128_0_1 (maskCol V0 t)))

/-- The backward segment sum of type `t`: the masked target rows added up at their source node. -/
def aggB (t : Fin 4) : FVec Ideal S50000x128 .f32 :=
  Host.scatterAdd scatter_S50000x128_S500000x1_S500000x128_1_0_0_1
    (broadcastInDim S50000x128 ![] bcast_S_S50000x128 (constant S_ .f32 0x00000000#32))
    (broadcastInDim S500000x1 ![0] bcast_S500000_S500000x1_0 (res_main_v1 V0))
    (mulf (res_main_v18 V0) (broadcastInDim S500000x128 ![0, 1] bcast_S500000x1_S500000x128_0_1 (maskCol V0 t)))

/-- Lane `k` of row `n` of the eight pieces laid side by side: lane `k % 128` of piece `k / 128`, each piece read from
    row `n` of the features and of its segment sum. -/
theorem lane_apply (n : Fin 50000) (k : Fin 1024) :
    (res_main_v175 V0 : FVec Ideal S50000x1024 .f32) (ix2 n k)
      = Cert.Spec.embLane (fun t k => aggA V0 t (ix2 n k)) (fun t k => aggB V0 t (ix2 n k))
          (fun k => (V0 (Proc.devRef .tc main_arg0) : FVec Ideal S50000x128 .f32) (ix2 n k))
          (fun t a b => (V0 (Proc.devRef .tc main_arg3) : FVec Ideal S4x128x128 .f32) (ix3 t a b))
          (fun t a b => (V0 (Proc.devRef .tc main_arg4) : FVec Ideal S4x128x128 .f32) (ix3 t a b))
          (fun t a b => (V0 (Proc.devRef .tc main_arg6) : FVec Ideal S4x128x128 .f32) (ix3 t a b))
          (fun t a b => (V0 (Proc.devRef .tc main_arg7) : FVec Ideal S4x128x128 .f32) (ix3 t a b))
          (fun t j => (V0 (Proc.devRef .tc main_arg5) : FVec Ideal S4x128 .f32) (ix2 t j))
          (fun t j => (V0 (Proc.devRef .tc main_arg8) : FVec Ideal S4x128 .f32) (ix2 t j)) k := by
  unfold res_main_v175 Cert.Spec.embLane Cert.Spec.emb
  refine concat8_row _ _ _ _ _ _ _ _ _ n _ _ _ _ _ _ _ _ ?_ ?_ ?_ ?_ ?_ ?_ ?_ ?_ k
  · exact fun j => piece_apply (aggA V0 0) _ _ _ _ 0 0 rfl _ rfl _ _ _ _ _ _ n j
  · exact fun j => piece_apply (aggB V0 0) _ _ _ _ 0 0 rfl _ rfl _ _ _ _ _ _ n j
  · exact fun j => piece_apply (aggA V0 1) _ _ _ _ 1 1 rfl _ rfl _ _ _ _ _ _ n j
  · exact fun j => piece_apply (aggB V0 1) _ _ _ _ 1 1 rfl _ rfl _ _ _ _ _ _ n j
  · exact fun j => piece_apply (aggA V0 2) _ _ _ _ 2 2 rfl _ rfl _ _ _ _ _ _ n j
  · exact fun j => piece_apply (aggB V0 2) _ _ _ _ 2 2 rfl _ rfl _ _ _ _ _ _ n j
  · exact fun j => piece_apply (aggA V0 3) _ _ _ _ 3 3 rfl _ rfl _ _ _ _ _ _ n j
  · exact fun j => piece_apply (aggB V0 3) _ _ _ _ 3 3 rfl _ rfl _ _ _ _ _ _ n j

/-- Entry `(n, c)` of the reference's result, from row `n` of the features and of the eight segment sums. -/
theorem result_apply (n : Fin 50000) (c : Fin 128) :
    (addf (Host.dotGeneral (φ₁ := .f32) (φ₂ := .f32) dot_S50000x1024_S1024x128_S50000x128_1_0_0_1_n_n none (res_main_v175 V0) (V0 (Proc.devRef .tc main_arg9)))
        (broadcastInDim S50000x128 ![0, 1] bcast_S1x128_S50000x128_0_1 (broadcastInDim S1x128 ![1] bcast_S128_S1x128_1 (V0 (Proc.devRef .tc main_arg10)))) :
        FVec Ideal S50000x128 .f32) (ix2 n c)
      = Cert.Spec.out (fun t k => aggA V0 t (ix2 n k)) (fun t k => aggB V0 t (ix2 n k))
          (fun k => (V0 (Proc.devRef .tc main_arg0) : FVec Ideal S50000x128 .f32) (ix2 n k))
          (fun t a b => (V0 (Proc.devRef .tc main_arg3) : FVec Ideal S4x128x128 .f32) (ix3 t a b))
          (fun t a b => (V0 (Proc.devRef .tc main_arg4) : FVec Ideal S4x128x128 .f32) (ix3 t a b))
          (fun t a b => (V0 (Proc.devRef .tc main_arg6) : FVec Ideal S4x128x128 .f32) (ix3 t a b))
          (fun t a b => (V0 (Proc.devRef .tc main_arg7) : FVec Ideal S4x128x128 .f32) (ix3 t a b))
          (fun t j => (V0 (Proc.devRef .tc main_arg5) : FVec Ideal S4x128 .f32) (ix2 t j))
          (fun t j => (V0 (Proc.devRef .tc main_arg8) : FVec Ideal S4x128 .f32) (ix2 t j))
          (fun k c' => (V0 (Proc.devRef .tc main_arg9) : FVec Ideal S1024x128 .f32) (ix2 k c'))
          (fun c' => (V0 (Proc.devRef .tc main_arg10) : FVec Ideal S128 .f32) (ix1 c')) c := by
  unfold Cert.Spec.out
  refine (addf_apply _ _ _).trans (congrArg₂ (· + ·) ?_ (rowvec_apply _ _ _ n c))
  refine (StackMember.dotGeneral_plain_apply (m := 50000) (k := 1024) (n := 128) (φ₁ := .f32) (φ₂ := .f32) none
    (res_main_v175 V0) (V0 (Proc.devRef .tc main_arg9)) n c).trans ?_
  exact Finset.sum_congr rfl fun k _ =>
    congrArg (· * (V0 (Proc.devRef .tc main_arg9) : FVec Ideal S1024x128 .f32) (ix2 k c)) (lane_apply V0 n k)

end Cert.RValue

end
-- ==== Proof.RAgg.lean ====
import proofs.«426551_j20383914787325_1_alg».proof.Proof.RValue
import proofs.«426551_j20383914787325_1_alg».proof.Proof.AggSum
import Idealize.ShloMosaic.Lib.Pipeline.Value
import Idealize.ShloMosaic.Lib.ValueLayout

/-!
# The reference's eight segment sums as sums over the edges

For each type the reference multiplies every gathered row by the edge's 0/1 mask "not a self-loop and of this type" and
adds the products into `50000` buckets at the edge's node number. Read at (node, lane) this is the sum over the edges
at that node of the row's lane times the mask, and the mask is the word-level 0/1 value of the edge.
-/

set_option maxRecDepth 16384

noncomputable section

namespace Cert.RAgg

open Cert.ReferenceIdeal Cert.ReferenceIdeal.Gen Cert.ReferenceIdeal.Value Cert.RValue
open Idealize.ShloMosaic Idealize.ShloMosaic.ValueIdx Idealize.ShloMosaic.StableHlo

variable (V0 : Valuation τ sig (Elt Ideal))

/-- The edge list and the type list as launched. -/
abbrev a1 : IVec S2x500000 32 := V0 (Proc.devRef .tc main_arg1)
abbrev a2 : IVec S500000 32 := V0 (Proc.devRef .tc main_arg2)

/-- A source or target at an edge is the edge list's entry. -/
theorem src_apply (e : Fin 500000) : res_main_v1 V0 (ix1 e) = a1 V0 (ix2 (0 : Fin 2) e) := by
  unfold res_main_v1
  refine (shapeCast_1a_a_apply (a := 500000) _ _ e).trans ?_
  exact slice2_axis0_apply 0 _ _ (0 : Fin 1) e (0 : Fin 2) rfl
theorem dst_apply (e : Fin 500000) : res_main_v3 V0 (ix1 e) = a1 V0 (ix2 (1 : Fin 2) e) := by
  unfold res_main_v3
  refine (shapeCast_1a_a_apply (a := 500000) _ _ e).trans ?_
  exact slice2_axis0_apply 1 _ _ (0 : Fin 1) e (1 : Fin 2) rfl

/-- The rows gathered at the sources and at the targets, the two index columns and the mask of type `t` laid along the
    lanes, as arrays of their literal types. -/
def rowsSrc : FVec Ideal S500000x128 .f32 := res_main_v11 V0
def rowsDst : FVec Ideal S500000x128 .f32 := res_main_v18 V0
def srcCol : IVec S500000x1 32 := broadcastInDim S500000x1 ![0] bcast_S500000_S500000x1_0 (res_main_v1 V0)
def dstCol : IVec S500000x1 32 := broadcastInDim S500000x1 ![0] bcast_S500000_S500000x1_0 (res_main_v3 V0)
def maskLanes (t : Fin 4) : FVec Ideal S500000x128 .f32 :=
  broadcastInDim S500000x128 ![0, 1] bcast_S500000x1_S500000x128_0_1 (maskCol V0 t)

/-- An index column reads its node list. -/
theorem srcCol_apply (e : Fin 500000) : srcCol V0 (ix2 e (0 : Fin 1)) = a1 V0 (ix2 (0 : Fin 2) e) := by
  unfold srcCol
  rw [broadcastInDim_apply _ _ _ (ix2 e (0 : Fin 1)) (ix1 e) (fun a => by
    match a with
    | ⟨0, _⟩ => rfl)]
  exact src_apply V0 e
theorem dstCol_apply (e : Fin 500000) : dstCol V0 (ix2 e (0 : Fin 1)) = a1 V0 (ix2 (1 : Fin 2) e) := by
  unfold dstCol
  rw [broadcastInDim_apply _ _ _ (ix2 e (0 : Fin 1)) (ix1 e) (fun a => by
    match a with
    | ⟨0, _⟩ => rfl)]
  exact dst_apply V0 e

/-- The type word the reference compares the labels with. -/
def tword (t : Fin 4) : BitVec 32 := ![0#32, 1#32, 2#32, 3#32] t

theorem tword_toInt (t : Fin 4) : (tword t).toInt = (t.val : ℤ) := by
  fin_cases t <;> decide

/-- The mask of type `t` laid along the lanes, at an edge: the edge's 0/1 mask word as a float. -/
theorem maskLanes_apply (t : Fin 4) (e : Fin 500000) (k : Fin 128) :
    maskLanes V0 t (ix2 e k)
      = Cert.AggWord.mask (IntOp.cmpi .ne (a1 V0 (ix2 (0 : Fin 2) e)) (a1 V0 (ix2 (1 : Fin 2) e))) (a2 V0 (ix1 e)) (tword t) := by
  unfold maskLanes
  rw [broadcastInDim_apply _ _ _ (ix2 e k) (ix2 e (0 : Fin 1)) (fun a => by
    match a with
    | ⟨0, _⟩ => rfl
    | ⟨1, _⟩ => rfl)]
  have hcol : ∀ (w : FVec Ideal S500000 .f32),
      broadcastInDim S500000x1 ![0] bcast_S500000_S500000x1_0 w (ix2 e (0 : Fin 1)) = w (ix1 e) := fun w =>
    broadcastInDim_apply _ _ _ (ix2 e (0 : Fin 1)) (ix1 e) (fun a => by
      match a with
      | ⟨0, _⟩ => rfl)
  rw [← src_apply V0 e, ← dst_apply V0 e]
  fin_cases t
  · show res_main_v23 V0 (ix2 e (0 : Fin 1)) = _
    unfold res_main_v23; rw [hcol]; rfl
  · show res_main_v62 V0 (ix2 e (0 : Fin 1)) = _
    unfold res_main_v62; rw [hcol]; rfl
  · show res_main_v101 V0 (ix2 e (0 : Fin 1)) = _
    unfold res_main_v101; rw [hcol]; rfl
  · show res_main_v140 V0 (ix2 e (0 : Fin 1)) = _
    unfold res_main_v140; rw [hcol]; rfl

/-- The forward segment sum of type `t` at (node, lane). -/
theorem aggA_apply (t : Fin 4) (n : Fin 50000) (k : Fin 128) :
    aggA V0 t (ix2 n k)
      = ∑ e : Fin 500000, if (dstCol V0 (ix2 e (0 : Fin 1))).toInt = (n.val : ℤ)
          then rowsSrc V0 (ix2 e k) * maskLanes V0 t (ix2 e k) else 0 :=
  Cert.AggSum.masked_apply scatter_S50000x128_S500000x1_S500000x128_1_0_0_1 rfl rfl rfl rfl _
    (fun _ => by show Ideal.ofBits .f32 0x00000000#32 = 0; exact Ideal.ofBits_zero_f32) (dstCol V0) (rowsSrc V0) (maskLanes V0 t) n k

/-- The backward segment sum of type `t` at (node, lane). -/
theorem aggB_apply (t : Fin 4) (n : Fin 50000) (k : Fin 128) :
    aggB V0 t (ix2 n k)
      = ∑ e : Fin 500000, if (srcCol V0 (ix2 e (0 : Fin 1))).toInt = (n.val : ℤ)
          then rowsDst V0 (ix2 e k) * maskLanes V0 t (ix2 e k) else 0 :=
  Cert.AggSum.masked_apply scatter_S50000x128_S500000x1_S500000x128_1_0_0_1 rfl rfl rfl rfl _
    (fun _ => by show Ideal.ofBits .f32 0x00000000#32 = 0; exact Ideal.ofBits_zero_f32) (srcCol V0) (rowsDst V0) (maskLanes V0 t) n k

end Cert.RAgg

end
-- ==== Proof.Bridge.lean ====
import proofs.«426551_j20383914787325_1_alg».proof.Proof.KHost
import proofs.«426551_j20383914787325_1_alg».proof.Proof.RAgg

/-!
# The two aggregations are one

From argument arrays that agree, with every entry of the edge list a node number and every entry of the type list a type
label: the rows both programs gather are the same rows, and the aggregated array the kernel's region is handed, read at
(type, node, lane), is the reference's segment sum of that type at (node, lane) — in both directions.
-/

set_option maxRecDepth 16384

noncomputable section

namespace Cert.Bridge

open Idealize.ShloMosaic Idealize.ShloMosaic.ValueIdx Idealize.ShloMosaic.StableHlo Idealize.SL.Sem

variable (m : (ℓ : Loc Cert.KernelIdeal.nD Cert.KernelIdeal.τ Cert.KernelIdeal.sig) → Buf (Elt Ideal) ℓ)
  (c : Dev Cert.KernelIdeal.nD)
  (V0 : Valuation Cert.ReferenceIdeal.τ Cert.ReferenceIdeal.sig (Elt Ideal))
  (h0 : (V0 (Proc.devRef .tc Cert.ReferenceIdeal.main_arg0) : FVec Ideal ⟨2, ![50000, 128]⟩ .f32) = Cert.KHost.a0 m c)
  (h1 : (V0 (Proc.devRef .tc Cert.ReferenceIdeal.main_arg1) : IVec ⟨2, ![2, 500000]⟩ 32) = Cert.KHost.a1 m c)
  (h2 : (V0 (Proc.devRef .tc Cert.ReferenceIdeal.main_arg2) : IVec ⟨1, ![500000]⟩ 32) = Cert.KHost.a2 m c)

include h1 in
/-- The reference's source and target lists are the kernel's. -/
theorem src_eq : Cert.ReferenceIdeal.Value.res_main_v1 V0 = Cert.KHost.src m c := by
  unfold Cert.ReferenceIdeal.Value.res_main_v1 Cert.KHost.src
  rw [h1]; rfl
include h1 in
theorem dst_eq : Cert.ReferenceIdeal.Value.res_main_v3 V0 = Cert.KHost.dst m c := by
  unfold Cert.ReferenceIdeal.Value.res_main_v3 Cert.KHost.dst
  rw [h1]; rfl

include h0 h1 in
/-- The rows the reference gathers at the sources are the rows the kernel gathers there. -/
theorem rows_src : Cert.RAgg.rowsSrc V0 = Cert.KHost.rowsAt m c (Cert.KHost.src m c) := by
  unfold Cert.RAgg.rowsSrc Cert.ReferenceIdeal.Value.res_main_v11
  rw [src_eq m c V0 h1, h0]; rfl
include h0 h1 in
/-- … and at the targets. -/
theorem rows_dst : Cert.RAgg.rowsDst V0 = Cert.KHost.rowsAt m c (Cert.KHost.dst m c) := by
  unfold Cert.RAgg.rowsDst Cert.ReferenceIdeal.Value.res_main_v18
  rw [dst_eq m c V0 h1, h0]; rfl

variable (hr1 : ∀ (r : Fin 2) (e : Fin 500000),
    0 ≤ (Cert.KHost.a1 m c (ix2 r e)).toInt ∧ (Cert.KHost.a1 m c (ix2 r e)).toInt < 50000)
  (hr2 : ∀ e : Fin 500000, 0 ≤ (Cert.KHost.a2 m c (ix1 e)).toInt ∧ (Cert.KHost.a2 m c (ix1 e)).toInt < 4)

include h1 h2 in
/-- The reference's mask at an edge, from the kernel's words of the edge. -/
theorem mask_eq (t : Fin 4) (e : Fin 500000) (k : Fin 128) :
    Cert.RAgg.maskLanes V0 t (ix2 e k)
      = Cert.AggWord.mask (IntOp.cmpi .ne (Cert.KHost.a1 m c (ix2 (0 : Fin 2) e)) (Cert.KHost.a1 m c (ix2 (1 : Fin 2) e)))
          (Cert.KHost.a2 m c (ix1 e)) (Cert.RAgg.tword t) := by
  rw [Cert.RAgg.maskLanes_apply]
  dsimp only [Cert.RAgg.a1, Cert.RAgg.a2]
  rw [h1, h2]

include h0 h1 h2 hr1 hr2 in
/-- The forward aggregated array is the reference's forward segment sums. -/
theorem aggA_eq (t : Fin 4) (n : Fin 50000) (k : Fin 128) :
    (Cert.KernelIdeal.Gen.V m c Cert.KernelIdeal.main_v34 : Cert.KernelIdeal.S4x50000x128.Idx → EReal) (ix3 t n k)
      = Cert.RValue.aggA V0 t (ix2 n k) := by
  rw [Cert.KHost.V_aggA, Cert.KHost.aggOf_apply, Cert.RAgg.aggA_apply, rows_src m c V0 h0 h1]
  refine Cert.AggSum.sums_eq _ (Cert.RAgg.dstCol V0) _ (Cert.RAgg.maskLanes V0 t)
    (fun e => IntOp.cmpi .ne (Cert.KHost.a1 m c (ix2 (0 : Fin 2) e)) (Cert.KHost.a1 m c (ix2 (1 : Fin 2) e)))
    (fun e => Cert.KHost.a1 m c (ix2 (1 : Fin 2) e)) (fun e => Cert.KHost.a2 m c (ix1 e)) (Cert.RAgg.tword t) t n k
    ?_ ?_ ?_ (fun e => hr1 1 e) hr2 (Cert.RAgg.tword_toInt t)
  · intro e
    rw [Cert.KHost.bucketCol_apply, Cert.KHost.src_apply, Cert.KHost.dst_apply]
  · intro e
    rw [Cert.RAgg.dstCol_apply]
    dsimp only [Cert.RAgg.a1]
    rw [h1]
  · intro e
    exact mask_eq m c V0 h1 h2 t e k

include h0 h1 h2 hr1 hr2 in
/-- The backward aggregated array is the reference's backward segment sums. -/
theorem aggB_eq (t : Fin 4) (n : Fin 50000) (k : Fin 128) :
    (Cert.KernelIdeal.Gen.V m c Cert.KernelIdeal.main_v36 : Cert.KernelIdeal.S4x50000x128.Idx → EReal) (ix3 t n k)
      = Cert.RValue.aggB V0 t (ix2 n k) := by
  rw [Cert.KHost.V_aggB, Cert.KHost.aggOf_apply, Cert.RAgg.aggB_apply, rows_dst m c V0 h0 h1]
  refine Cert.AggSum.sums_eq _ (Cert.RAgg.srcCol V0) _ (Cert.RAgg.maskLanes V0 t)
    (fun e => IntOp.cmpi .ne (Cert.KHost.a1 m c (ix2 (0 : Fin 2) e)) (Cert.KHost.a1 m c (ix2 (1 : Fin 2) e)))
    (fun e => Cert.KHost.a1 m c (ix2 (0 : Fin 2) e)) (fun e => Cert.KHost.a2 m c (ix1 e)) (Cert.RAgg.tword t) t n k
    ?_ ?_ ?_ (fun e => hr1 0 e) hr2 (Cert.RAgg.tword_toInt t)
  · intro e
    rw [Cert.KHost.bucketCol_apply, Cert.KHost.src_apply, Cert.KHost.dst_apply]
  · intro e
    rw [Cert.RAgg.srcCol_apply]
    dsimp only [Cert.RAgg.a1]
    rw [h1]
  · intro e
    exact mask_eq m c V0 h1 h2 t e k

end Cert.Bridge

end
-- ==== Proof.PreRange.lean ====
import proofs.«426551_j20383914787325_1_alg».proof.Pre_finite_inputs
import Idealize.ShloMosaic.Lib.StableHlo.Predicate
import Idealize.ShloMosaic.Lib.ReduceAll
import Idealize.ShloMosaic.Lib.ValueIdx
import Idealize.ShloMosaic.Lib.ValueIdxRank1
import Idealize.ShloMosaic.Lib.WordArith

/-!
# The index ranges the precondition states

The precondition's last two conjuncts say that every entry of the edge list is a node number, `0 ≤ · < 50000`, and every
entry of the type list a type label, `0 ≤ · < 4`, each as an and-reduction over the array of the two signed
comparisons. Read back, they give the two ranges at every entry.
-/

set_option maxRecDepth 16384

noncomputable section

namespace Cert.PreRange

open Cert.Pre_finite_inputs Idealize.ShloMosaic Idealize.ShloMosaic.ValueIdx

variable [Cert.Pre_finite_inputs.Facts]

/-- The result of an all-axes reduction has one index. -/
instance : Subsingleton S_.Idx := ⟨fun a b => funext fun d => d.elim0⟩

/-- A word that tests at least `0` and below the literal `n`, both signed, reads signed in `[0, n)`. -/
theorem range_of_cmp (x : BitVec 32) (n : Nat) (hn : n < 2 ^ 31)
    (h : IntOp.andi (IntOp.cmpi .sge x 0#32) (IntOp.cmpi .slt x (BitVec.ofNat 32 n)) = 1#1) :
    0 ≤ x.toInt ∧ x.toInt < n := by
  obtain ⟨h0, h1⟩ := IntOp.andi_eq_one.1 h
  rw [IntOp.cmpi_sge, show (0#32 : BitVec 32).toInt = 0 from by decide] at h0
  rw [IntOp.cmpi_slt, StableHlo.Predicate.toInt_ofNat_small n hn] at h1
  exact ⟨h0, h1⟩

/-- The last part of the printed chain: its result is the conjunction so far and the type list's range test,
    and-reduced over the list. Where it is one, both are: the conjunction so far, and the test at every entry. -/
theorem part3_one {F : FTy → Type} [FloatOps F] (a2 : IVec S500000 32) (v50 : IVec S_ 1)
    (h : fn_part3 (F := F) a2 v50 ix0 = 1#1) :
    v50 ix0 = 1#1 ∧ ∀ e : Fin 500000, 0 ≤ (a2 (ix1 e)).toInt ∧ (a2 (ix1 e)).toInt < 4 := by
  dsimp only [fn_part3] at h
  obtain ⟨h50, hall⟩ := IntOp.andi_eq_one.1 h
  refine ⟨h50, fun e => ?_⟩
  have he := Host.reduce_andi_all _ _ _ _ _ hall (ix1 e)
  exact range_of_cmp (a2 (ix1 e)) 4 (by norm_num) he

/-- The middle part of the printed chain ends in the edge list's range test, and-reduced over the list, joined to
    the conjunction so far and handed to the last part. Where the whole is one, both ranges hold at every entry. -/
theorem part2_one {F : FTy → Type} [FloatOps F] (a1 : IVec S2x500000 32) (a2 : IVec S500000 32)
    (a9 : FVec F S1024x128 .f32) (a10 : FVec F S128 .f32) (v33 : IVec S_ 1)
    (h : fn_part2 (F := F) a1 a2 a9 a10 v33 ix0 = 1#1) :
    (∀ (r : Fin 2) (e : Fin 500000), 0 ≤ (a1 (ix2 r e)).toInt ∧ (a1 (ix2 r e)).toInt < 50000)
      ∧ (∀ e : Fin 500000, 0 ≤ (a2 (ix1 e)).toInt ∧ (a2 (ix1 e)).toInt < 4) := by
  dsimp only [fn_part2] at h
  obtain ⟨h50, h2⟩ := part3_one (F := F) a2 _ h
  obtain ⟨-, hall⟩ := IntOp.andi_eq_one.1 h50
  refine ⟨fun r e => ?_, h2⟩
  have he := Host.reduce_andi_all _ _ _ _ _ hall (ix2 r e)
  exact range_of_cmp (a1 (ix2 r e)) 50000 (by norm_num) he

/-- Where the precondition holds, the edge list's entries are node numbers and the type list's entries type labels. -/
theorem range_of_pre {F : FTy → Type} [FloatOps F] (a0 : FVec F S50000x128 .f32) (a1 : IVec S2x500000 32) (a2 : IVec S500000 32)
    (a3 a4 : FVec F S4x128x128 .f32) (a5 : FVec F S4x128 .f32) (a6 a7 : FVec F S4x128x128 .f32) (a8 : FVec F S4x128 .f32)
    (a9 : FVec F S1024x128 .f32) (a10 : FVec F S128 .f32)
    (h : Cert.Pre_finite_inputs.fn (F := F) a0 a1 a2 a3 a4 a5 a6 a7 a8 a9 a10 = fun _ => 1#1) :
    (∀ (r : Fin 2) (e : Fin 500000), 0 ≤ (a1 (ix2 r e)).toInt ∧ (a1 (ix2 r e)).toInt < 50000)
      ∧ (∀ e : Fin 500000, 0 ≤ (a2 (ix1 e)).toInt ∧ (a2 (ix1 e)).toInt < 4) := by
  have e := congrFun h ix0
  dsimp only [fn, fn_part1] at e
  exact part2_one (F := F) a1 a2 a9 a10 _ e

end Cert.PreRange

end
-- ==== Proof.lean ====
/-
  The layer (per-edge-type neighbour aggregation in both directions, eight pieces `agg · Wl + x · Wr + b`, their
  concatenation and a final linear map) as a kernel program and as a plain reference, equal over the extended reals.

  The two programs differ only in how they aggregate. The kernel's host operations file every edge once per direction,
  under the single bucket number `type · 50000 + node` (a self-loop under a dustbin bucket that is then dropped), add the
  gathered feature rows into one array of buckets and read it as `[4, 50000, 128]`; the reference, for each of the four
  types, masks the gathered rows by "not a self-loop and of this type" and adds them into `50000` buckets by node. With
  every entry of the edge list a node number in `0 … 49999` and every type label in `0 … 3` (the precondition's two index
  conjuncts) the bucket number determines type and node and no 32-bit arithmetic wraps, so the two aggregations agree
  edge by edge. Everything downstream is the same finite sums in the same association on both sides: the kernel's
  region computes it row block by row block (its fifty blocks tile the result), the reference on whole arrays; a change
  of float format is the identity on the extended reals. No step uses that the float inputs are finite.

  The three frames are the generated ones (the reference's is its generated run with the result dropped); the ideal
  pass rewrote nothing, so the idealization claim is `True`.
-/
import proofs.«426551_j20383914787325_1_alg».proof.Defs
import proofs.«426551_j20383914787325_1_alg».proof.Proof.Gen.Kernel
import proofs.«426551_j20383914787325_1_alg».proof.Proof.Gen.Kernel.Skeleton
import proofs.«426551_j20383914787325_1_alg».proof.Proof.Gen.Kernel.Launch
import proofs.«426551_j20383914787325_1_alg».proof.Proof.Gen.Kernel.Points
import proofs.«426551_j20383914787325_1_alg».proof.Proof.Gen.Kernel.Frame
import proofs.«426551_j20383914787325_1_alg».proof.Proof.Gen.KernelIdeal
import proofs.«426551_j20383914787325_1_alg».proof.Proof.Gen.KernelIdeal.Skeleton
import proofs.«426551_j20383914787325_1_alg».proof.Proof.Gen.KernelIdeal.Launch
import proofs.«426551_j20383914787325_1_alg».proof.Proof.Gen.KernelIdeal.Points
import proofs.«426551_j20383914787325_1_alg».proof.Proof.Gen.KernelIdeal.Frame
import proofs.«426551_j20383914787325_1_alg».proof.Proof.Gen.ReferenceIdeal
import proofs.«426551_j20383914787325_1_alg».proof.Proof.Gen.Pre_finite_inputs
import proofs.«426551_j20383914787325_1_alg».proof.Proof.Gen.KernelIdeal.Value
import proofs.«426551_j20383914787325_1_alg».proof.Proof.Gen.ReferenceIdeal.Run
import proofs.«426551_j20383914787325_1_alg».proof.Proof.KFinal
import proofs.«426551_j20383914787325_1_alg».proof.Proof.Bridge
import proofs.«426551_j20383914787325_1_alg».proof.Proof.PreRange
import proofs.«426551_j20383914787325_1_alg».proof.Proof.RValue
import Idealize.ShloMosaic.Adequacy
import Idealize.ShloMosaic.Init

set_option maxRecDepth 16384

noncomputable section

namespace Cert.Proof

open Idealize.ShloMosaic Idealize.SL.Sem Idealize.ShloMosaic.ValueIdx Idealize.ShloMosaic.StableHlo

/-- The layer's output at a node and lane depends on its arguments only through their values. -/
theorem out_congr {aA aA' aB aB' : Fin 4 → Cert.Spec.Row} {x x' : Cert.Spec.Row}
    {WAl WAl' WAr WAr' WBl WBl' WBr WBr' : Fin 4 → Cert.Spec.Mat} {bA bA' bB bB' : Fin 4 → Cert.Spec.Row}
    {Wlin Wlin' : Fin 1024 → Cert.Spec.Row} {blin blin' : Cert.Spec.Row} (c : Fin 128)
    (e1 : aA = aA') (e2 : aB = aB') (e3 : x = x') (e4 : WAl = WAl') (e5 : WAr = WAr') (e6 : WBl = WBl') (e7 : WBr = WBr')
    (e8 : bA = bA') (e9 : bB = bB') (e10 : Wlin = Wlin') (e11 : blin = blin') :
    Cert.Spec.out aA aB x WAl WAr WBl WBr bA bB Wlin blin c = Cert.Spec.out aA' aB' x' WAl' WAr' WBl' WBr' bA' bB' Wlin' blin' c := by
  subst e1 e2 e3 e4 e5 e6 e7 e8 e9 e10 e11; rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From agreeing arguments inside the precondition both programs end with the layer's output of the kernel's
    arguments: the kernel's region by blocks, the reference entry by entry, the aggregations by the bridge. -/
theorem algebraic : Cert.algebraic_KernelIdeal_ReferenceIdeal := by
  intro m ρ m' ρ' hpre hagree
  refine ⟨fun c => Cert.KFinal.result m c, Cert.KFinal.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10⟩ := hagree c
  obtain ⟨hr1, hr2⟩ := Cert.PreRange.range_of_pre _ _ _ _ _ _ _ _ _ _ _ (hpre c)
  funext i
  obtain ⟨n, cc, rfl⟩ : ∃ (n : Fin 50000) (cc : Fin 128), i = ix2 n cc := ⟨i 0, i 1, eq_ix2 i⟩
  refine ((Cert.RValue.result_apply (launchContents m' c) n cc).trans ?_).trans (Cert.KFinal.result_apply m c n cc).symm
  refine out_congr cc ?_ ?_ ?_ ?_ ?_ ?_ ?_ ?_ ?_ ?_ ?_
  · funext t k; exact (Cert.Bridge.aggA_eq m c (launchContents m' c) g0 g1 g2 hr1 hr2 t n k).symm
  · funext t k; exact (Cert.Bridge.aggB_eq m c (launchContents m' c) g0 g1 g2 hr1 hr2 t n k).symm
  · funext k; rw [Cert.KernelIdeal.Gen.V_main_arg0]; exact congrFun g0 _
  · funext t a b; rw [Cert.KernelIdeal.Gen.V_main_arg3]; exact congrFun g3 _
  · funext t a b; rw [Cert.KernelIdeal.Gen.V_main_arg4]; exact congrFun g4 _
  · funext t a b; rw [Cert.KernelIdeal.Gen.V_main_arg6]; exact congrFun g6 _
  · funext t a b; rw [Cert.KernelIdeal.Gen.V_main_arg7]; exact congrFun g7 _
  · funext t j; rw [Cert.KernelIdeal.Gen.V_main_arg5]; exact congrFun g5 _
  · funext t j; rw [Cert.KernelIdeal.Gen.V_main_arg8]; exact congrFun g8 _
  · funext k j; rw [Cert.KernelIdeal.Gen.V_main_arg9]; exact congrFun g9 _
  · funext j; rw [Cert.KernelIdeal.Gen.V_main_arg10]; exact congrFun g10 _

end Cert.Proof

namespace Cert.Proof

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
